-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v60)) (v1 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_v77) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_v81) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S128x256 : Shape := ⟨2, ![128, 256]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_arg6 : FVec F S64x128 .f32) (main_arg7 : FVec F S64 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x128 .f32 := Host.absf main_arg6
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x256 .f32) (main_arg1 : IVec S2x800000 32) (main_arg2 : FVec F S128x256 .f32) (main_arg3 : FVec F S128 .f32) (main_arg4 : FVec F S64x128 .f32) (main_arg5 : FVec F S64 .f32) (main_arg6 : FVec F S64x128 .f32) (main_arg7 : FVec F S64 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S64x128 .f32 := Host.absf main_arg4
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg5 main_arg6 main_arg7 main_v13 main_v16
-- ==== Kernel.lean ====
abbrev S50000x256 : Shape := ⟨2, ![50000, 256]⟩
abbrev S2x800000 : Shape := ⟨2, ![2, 800000]⟩
abbrev S128x256 : Shape := ⟨2, ![128, 256]⟩
abbrev S128 : Shape := ⟨1, ![128]⟩
abbrev S64x128 : Shape := ⟨2, ![64, 128]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S256x128 : Shape := ⟨2, ![256, 128]⟩
abbrev S50000x128 : Shape := ⟨2, ![50000, 128]⟩
abbrev S5000x256 : Shape := ⟨2, ![5000, 256]⟩
abbrev S5000x128 : Shape := ⟨2, ![5000, 128]⟩
abbrev S850000x128 : Shape := ⟨2, ![850000, 128]⟩
abbrev S1x128 : Shape := ⟨2, ![1, 128]⟩
abbrev S128x64 : Shape := ⟨2, ![128, 64]⟩
abbrev S50000x64 : Shape := ⟨2, ![50000, 64]⟩
abbrev S5000x64 : Shape := ⟨2, ![5000, 64]⟩
abbrev S850000x64 : Shape := ⟨2, ![850000, 64]⟩
abbrev S1x64 : Shape := ⟨2, ![1, 64]⟩

abbrev nBuf : Space → Nat
  | .hbm => 101
  | .vmem => 30
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S128x256, .f32⟩
  | .hbm, ⟨3, _⟩ => ⟨S128, .f32⟩
  | .hbm, ⟨4, _⟩ => ⟨S64x128, .f32⟩
  | .hbm, ⟨5, _⟩ => ⟨S64, .f32⟩
  | .hbm, ⟨6, _⟩ => ⟨S64x128, .f32⟩
  | .hbm, ⟨7, _⟩ => ⟨S64, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S50000, .f32⟩
  | .hbm, ⟨22, _⟩ => ⟨S_, .i32⟩
  | .hbm, ⟨23, _⟩ => ⟨S850000, .i32⟩
  | .hbm, ⟨24, _⟩ => ⟨S850000, .i1⟩
  | .hbm, ⟨25, _⟩ => ⟨S_, .i32⟩
  | .hbm, ⟨26, _⟩ => ⟨S850000, .i32⟩
  | .hbm, ⟨27, _⟩ => ⟨S850000, .i32⟩
  | .hbm, ⟨28, _⟩ => ⟨S850000, .i32⟩
  | .hbm, ⟨29, _⟩ => ⟨S850000x1, .i32⟩
  | .hbm, ⟨30, _⟩ => ⟨S850000, .f32⟩
  | .hbm, ⟨31, _⟩ => ⟨S_, .i32⟩
  | .hbm, ⟨32, _⟩ => ⟨S850000, .i32⟩
  | .hbm, ⟨33, _⟩ => ⟨S850000, .i1⟩
  | .hbm, ⟨34, _⟩ => ⟨S_, .i32⟩
  | .hbm, ⟨35, _⟩ => ⟨S850000, .i32⟩
  | .hbm, ⟨36, _⟩ => ⟨S850000, .i32⟩
  | .hbm, ⟨37, _⟩ => ⟨S850000, .i32⟩
  | .hbm, ⟨38, _⟩ => ⟨S850000x1, .i32⟩
  | .hbm, ⟨39, _⟩ => ⟨S850000, .f32⟩
  | .hbm, ⟨40, _⟩ => ⟨S850000, .f32⟩
  | .hbm, ⟨41, _⟩ => ⟨S256x128, .f32⟩
  | .hbm, ⟨42, _⟩ => ⟨S50000x128, .f32⟩
  | .hbm, ⟨43, _⟩ => ⟨S_, .i32⟩
  | .hbm, ⟨44, _⟩ => ⟨S850000, .i32⟩
  | .hbm, ⟨45, _⟩ => ⟨S850000, .i1⟩
  | .hbm, ⟨46, _⟩ => ⟨S_, .i32⟩
  | .hbm, ⟨47, _⟩ => ⟨S850000, .i32⟩
  | .hbm, ⟨48, _⟩ => ⟨S850000, .i32⟩
  | .hbm, ⟨49, _⟩ => ⟨S850000, .i32⟩
  | .hbm, ⟨50, _⟩ => ⟨S850000x1, .i32⟩
  | .hbm, ⟨51, _⟩ => ⟨S850000x128, .f32⟩
  | .hbm, ⟨52, _⟩ => ⟨S850000x1, .f32⟩
  | .hbm, ⟨53, _⟩ => ⟨S850000x128, .f32⟩
  | .hbm, ⟨54, _⟩ => ⟨S850000x128, .f32⟩
  | .hbm, ⟨55, _⟩ => ⟨S_, .f32⟩
  | .hbm, ⟨56, _⟩ => ⟨S50000x128, .f32⟩
  | .hbm, ⟨57, _⟩ => ⟨S850000x1, .i32⟩
  | .hbm, ⟨58, _⟩ => ⟨S50000x128, .f32⟩
  | .hbm, ⟨59, _⟩ => ⟨S1x128, .f32⟩
  | .hbm, ⟨60, _⟩ => ⟨S50000x128, .f32⟩
  | .hbm, ⟨61, _⟩ => ⟨S128x64, .f32⟩
  | .hbm, ⟨62, _⟩ => ⟨S50000x64, .f32⟩
  | .hbm, ⟨63, _⟩ => ⟨S_, .i32⟩
  | .hbm, ⟨64, _⟩ => ⟨S850000, .i32⟩
  | .hbm, ⟨65, _⟩ => ⟨S850000, .i1⟩
  | .hbm, ⟨66, _⟩ => ⟨S_, .i32⟩
  | .hbm, ⟨67, _⟩ => ⟨S850000, .i32⟩
  | .hbm, ⟨68, _⟩ => ⟨S850000, .i32⟩
  | .hbm, ⟨69, _⟩ => ⟨S850000, .i32⟩
  | .hbm, ⟨70, _⟩ => ⟨S850000x1, .i32⟩
  | .hbm, ⟨71, _⟩ => ⟨S850000x64, .f32⟩
  | .hbm, ⟨72, _⟩ => ⟨S850000x1, .f32⟩
  | .hbm, ⟨73, _⟩ => ⟨S850000x64, .f32⟩
  | .hbm, ⟨74, _⟩ => ⟨S850000x64, .f32⟩
  | .hbm, ⟨75, _⟩ => ⟨S_, .f32⟩
  | .hbm, ⟨76, _⟩ => ⟨S50000x64, .f32⟩
  | .hbm, ⟨77, _⟩ => ⟨S850000x1, .i32⟩
  | .hbm, ⟨78, _⟩ => ⟨S50000x64, .f32⟩
  | .hbm, ⟨79, _⟩ => ⟨S1x64, .f32⟩
  | .hbm, ⟨80, _⟩ => ⟨S50000x64, .f32⟩
  | .hbm, ⟨81, _⟩ => ⟨S128x64, .f32⟩
  | .hbm, ⟨82, _⟩ => ⟨S50000x64, .f32⟩
  | .hbm, ⟨83, _⟩ => ⟨S_, .i32⟩
  | .hbm, ⟨84, _⟩ => ⟨S850000, .i32⟩
  | .hbm, ⟨85, _⟩ => ⟨S850000, .i1⟩
  | .hbm, ⟨86, _⟩ => ⟨S_, .i32⟩
  | .hbm, ⟨87, _⟩ => ⟨S850000, .i32⟩
  | .hbm, ⟨88, _⟩ => ⟨S850000, .i32⟩
  | .hbm, ⟨89, _⟩ => ⟨S850000, .i32⟩
  | .hbm, ⟨90, _⟩ => ⟨S850000x1, .i32⟩
  | .hbm, ⟨91, _⟩ => ⟨S850000x64, .f32⟩
  | .hbm, ⟨92, _⟩ => ⟨S850000x1, .f32⟩
  | .hbm, ⟨93, _⟩ => ⟨S850000x64, .f32⟩
  | .hbm, ⟨94, _⟩ => ⟨S850000x64, .f32⟩
  | .hbm, ⟨95, _⟩ => ⟨S_, .f32⟩
  | .hbm, ⟨96, _⟩ => ⟨S50000x64, .f32⟩
  | .hbm, ⟨97, _⟩ => ⟨S850000x1, .i32⟩
  | .hbm, ⟨98, _⟩ => ⟨S50000x64, .f32⟩
  | .hbm, ⟨99, _⟩ => ⟨S1x64, .f32⟩
  | .hbm, ⟨100, _⟩ => ⟨S50000x64, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | .local _ .vmem, ⟨20, _⟩ => ⟨S5000x128, .f32⟩
  | .local _ .vmem, ⟨21, _⟩ => ⟨S5000x128, .f32⟩
  | .local _ .vmem, ⟨22, _⟩ => ⟨S128x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S1x64, .f32⟩
  | .local _ .vmem, ⟨28, _⟩ => ⟨S5000x64, .f32⟩
  | .local _ .vmem, ⟨29, _⟩ => ⟨S5000x64, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_4 : Ref sig .tc := ⟨.hbm, 43, rfl⟩
abbrev main_v29 : Ref sig .tc := ⟨.hbm, 44, rfl⟩
abbrev main_v30 : Ref sig .tc := ⟨.hbm, 45, rfl⟩
abbrev main_c_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_6 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_c_7 : Ref sig .tc := ⟨.hbm, 63, rfl⟩
abbrev main_v46 : Ref sig .tc := ⟨.hbm, 64, rfl⟩
abbrev main_v47 : Ref sig .tc := ⟨.hbm, 65, rfl⟩
abbrev main_c_8 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_9 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_c_10 : Ref sig .tc := ⟨.hbm, 83, rfl⟩
abbrev main_v63 : Ref sig .tc := ⟨.hbm, 84, rfl⟩
abbrev main_v64 : Ref sig .tc := ⟨.hbm, 85, rfl⟩
abbrev main_c_11 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_cst_12 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  transposes_S128x256_S256x128_1_0 : S128x256.Transposes [1, 0] S256x128
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S5000x128_S5000x128_0_0 : ∀ a, (![0, 0] : Fin 2 → Nat) a + S5000x128.size a ≤ S5000x128.size a
  h_S5000x128 : 0 < S5000x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  transposes_S64x128_S128x64_1_0 : S64x128.Transposes [1, 0] S128x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S5000x64_S5000x64_0_0 : ∀ a, (![0, 0] : Fin 2 → Nat) a + S5000x64.size a ≤ S5000x64.size a
  h_S5000x64 : 0 < S5000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x256_S256x128_S5000x128_1_0_0_1_n_n_wf : DotDims.WF S5000x256 S256x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x64_S5000x64_1_0_0_1_n_n_wf : DotDims.WF S5000x128 S128x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S50000x64.size a
  hwx3_2 : ∀ i : grid3.Coords, EltTy.bits .f32 = 32 ∨ (Rect.block (s := S50000x64) S5000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S50000x64.size a
  hwx4_2 : ∀ i : grid4.Coords, EltTy.bits .f32 = 32 ∨ (Rect.block (s := S50000x64) S5000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x64.size a ≤ S50000x64.size a
  hwx5_2 : ∀ i : grid5.Coords, EltTy.bits .f32 = 32 ∨ (Rect.block (s := S50000x64) S5000x64.size (cc5_transform_2 i) (hinb5_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v27) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v42) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v43) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v43) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v44) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v58) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v59) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v60) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v43) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v61) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v62) S5000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v75) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v76) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v77) S5000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S128x256 : Shape := ⟨2, ![128, 256]⟩
abbrev S128 : Shape := ⟨1, ![128]⟩
abbrev S64x128 : Shape := ⟨2, ![64, 128]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S256x128 : Shape := ⟨2, ![256, 128]⟩
abbrev S50000x128 : Shape := ⟨2, ![50000, 128]⟩
abbrev S850000x128 : Shape := ⟨2, ![850000, 128]⟩
abbrev S1x128 : Shape := ⟨2, ![1, 128]⟩
abbrev S128x64 : Shape := ⟨2, ![128, 64]⟩
abbrev S50000x64 : Shape := ⟨2, ![50000, 64]⟩
abbrev S850000x64 : Shape := ⟨2, ![850000, 64]⟩
abbrev S1x64 : Shape := ⟨2, ![1, 64]⟩

abbrev nBuf : Space → Nat
  | .hbm => 107
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S128x256, .f32⟩
  | .hbm, ⟨3, _⟩ => ⟨S128, .f32⟩
  | .hbm, ⟨4, _⟩ => ⟨S64x128, .f32⟩
  | .hbm, ⟨5, _⟩ => ⟨S64, .f32⟩
  | .hbm, ⟨6, _⟩ => ⟨S64x128, .f32⟩
  | .hbm, ⟨7, _⟩ => ⟨S64, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S50000, .f32⟩
  | .hbm, ⟨22, _⟩ => ⟨S_, .i32⟩
  | .hbm, ⟨23, _⟩ => ⟨S850000, .i32⟩
  | .hbm, ⟨24, _⟩ => ⟨S850000, .i1⟩
  | .hbm, ⟨25, _⟩ => ⟨S_, .i32⟩
  | .hbm, ⟨26, _⟩ => ⟨S850000, .i32⟩
  | .hbm, ⟨27, _⟩ => ⟨S850000, .i32⟩
  | .hbm, ⟨28, _⟩ => ⟨S850000, .i32⟩
  | .hbm, ⟨29, _⟩ => ⟨S850000x1, .i32⟩
  | .hbm, ⟨30, _⟩ => ⟨S850000, .f32⟩
  | .hbm, ⟨31, _⟩ => ⟨S_, .i32⟩
  | .hbm, ⟨32, _⟩ => ⟨S850000, .i32⟩
  | .hbm, ⟨33, _⟩ => ⟨S850000, .i1⟩
  | .hbm, ⟨34, _⟩ => ⟨S_, .i32⟩
  | .hbm, ⟨35, _⟩ => ⟨S850000, .i32⟩
  | .hbm, ⟨36, _⟩ => ⟨S850000, .i32⟩
  | .hbm, ⟨37, _⟩ => ⟨S850000, .i32⟩
  | .hbm, ⟨38, _⟩ => ⟨S850000x1, .i32⟩
  | .hbm, ⟨39, _⟩ => ⟨S850000, .f32⟩
  | .hbm, ⟨40, _⟩ => ⟨S850000, .f32⟩
  | .hbm, ⟨41, _⟩ => ⟨S256x128, .f32⟩
  | .hbm, ⟨42, _⟩ => ⟨S50000x128, .f32⟩
  | .hbm, ⟨43, _⟩ => ⟨S_, .i32⟩
  | .hbm, ⟨44, _⟩ => ⟨S850000, .i32⟩
  | .hbm, ⟨45, _⟩ => ⟨S850000, .i1⟩
  | .hbm, ⟨46, _⟩ => ⟨S_, .i32⟩
  | .hbm, ⟨47, _⟩ => ⟨S850000, .i32⟩
  | .hbm, ⟨48, _⟩ => ⟨S850000, .i32⟩
  | .hbm, ⟨49, _⟩ => ⟨S850000, .i32⟩
  | .hbm, ⟨50, _⟩ => ⟨S850000x1, .i32⟩
  | .hbm, ⟨51, _⟩ => ⟨S850000x128, .f32⟩
  | .hbm, ⟨52, _⟩ => ⟨S850000x1, .f32⟩
  | .hbm, ⟨53, _⟩ => ⟨S850000x128, .f32⟩
  | .hbm, ⟨54, _⟩ => ⟨S850000x128, .f32⟩
  | .hbm, ⟨55, _⟩ => ⟨S_, .f32⟩
  | .hbm, ⟨56, _⟩ => ⟨S50000x128, .f32⟩
  | .hbm, ⟨57, _⟩ => ⟨S850000x1, .i32⟩
  | .hbm, ⟨58, _⟩ => ⟨S50000x128, .f32⟩
  | .hbm, ⟨59, _⟩ => ⟨S1x128, .f32⟩
  | .hbm, ⟨60, _⟩ => ⟨S50000x128, .f32⟩
  | .hbm, ⟨61, _⟩ => ⟨S50000x128, .f32⟩
  | .hbm, ⟨62, _⟩ => ⟨S_, .f32⟩
  | .hbm, ⟨63, _⟩ => ⟨S50000x128, .f32⟩
  | .hbm, ⟨64, _⟩ => ⟨S50000x128, .f32⟩
  | .hbm, ⟨65, _⟩ => ⟨S128x64, .f32⟩
  | .hbm, ⟨66, _⟩ => ⟨S50000x64, .f32⟩
  | .hbm, ⟨67, _⟩ => ⟨S_, .i32⟩
  | .hbm, ⟨68, _⟩ => ⟨S850000, .i32⟩
  | .hbm, ⟨69, _⟩ => ⟨S850000, .i1⟩
  | .hbm, ⟨70, _⟩ => ⟨S_, .i32⟩
  | .hbm, ⟨71, _⟩ => ⟨S850000, .i32⟩
  | .hbm, ⟨72, _⟩ => ⟨S850000, .i32⟩
  | .hbm, ⟨73, _⟩ => ⟨S850000, .i32⟩
  | .hbm, ⟨74, _⟩ => ⟨S850000x1, .i32⟩
  | .hbm, ⟨75, _⟩ => ⟨S850000x64, .f32⟩
  | .hbm, ⟨76, _⟩ => ⟨S850000x1, .f32⟩
  | .hbm, ⟨77, _⟩ => ⟨S850000x64, .f32⟩
  | .hbm, ⟨78, _⟩ => ⟨S850000x64, .f32⟩
  | .hbm, ⟨79, _⟩ => ⟨S_, .f32⟩
  | .hbm, ⟨80, _⟩ => ⟨S50000x64, .f32⟩
  | .hbm, ⟨81, _⟩ => ⟨S850000x1, .i32⟩
  | .hbm, ⟨82, _⟩ => ⟨S50000x64, .f32⟩
  | .hbm, ⟨83, _⟩ => ⟨S1x64, .f32⟩
  | .hbm, ⟨84, _⟩ => ⟨S50000x64, .f32⟩
  | .hbm, ⟨85, _⟩ => ⟨S50000x64, .f32⟩
  | .hbm, ⟨86, _⟩ => ⟨S128x64, .f32⟩
  | .hbm, ⟨87, _⟩ => ⟨S50000x64, .f32⟩
  | .hbm, ⟨88, _⟩ => ⟨S_, .i32⟩
  | .hbm, ⟨89, _⟩ => ⟨S850000, .i32⟩
  | .hbm, ⟨90, _⟩ => ⟨S850000, .i1⟩
  | .hbm, ⟨91, _⟩ => ⟨S_, .i32⟩
  | .hbm, ⟨92, _⟩ => ⟨S850000, .i32⟩
  | .hbm, ⟨93, _⟩ => ⟨S850000, .i32⟩
  | .hbm, ⟨94, _⟩ => ⟨S850000, .i32⟩
  | .hbm, ⟨95, _⟩ => ⟨S850000x1, .i32⟩
  | .hbm, ⟨96, _⟩ => ⟨S850000x64, .f32⟩
  | .hbm, ⟨97, _⟩ => ⟨S850000x1, .f32⟩
  | .hbm, ⟨98, _⟩ => ⟨S850000x64, .f32⟩
  | .hbm, ⟨99, _⟩ => ⟨S850000x64, .f32⟩
  | .hbm, ⟨100, _⟩ => ⟨S_, .f32⟩
  | .hbm, ⟨101, _⟩ => ⟨S50000x64, .f32⟩
  | .hbm, ⟨102, _⟩ => ⟨S850000x1, .i32⟩
  | .hbm, ⟨103, _⟩ => ⟨S50000x64, .f32⟩
  | .hbm, ⟨104, _⟩ => ⟨S1x64, .f32⟩
  | .hbm, ⟨105, _⟩ => ⟨S50000x64, .f32⟩
  | .hbm, ⟨106, _⟩ => ⟨S50000x64, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_4 : Ref sig .tc := ⟨.hbm, 43, rfl⟩
abbrev main_v29 : Ref sig .tc := ⟨.hbm, 44, rfl⟩
abbrev main_v30 : Ref sig .tc := ⟨.hbm, 45, rfl⟩
abbrev main_c_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_6 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_call0_cst : Ref sig .tc := ⟨.hbm, 62, rfl⟩
abbrev main_call0_v0 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_c_7 : Ref sig .tc := ⟨.hbm, 67, rfl⟩
abbrev main_v48 : Ref sig .tc := ⟨.hbm, 68, rfl⟩
abbrev main_v49 : Ref sig .tc := ⟨.hbm, 69, rfl⟩
abbrev main_c_8 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_9 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_c_10 : Ref sig .tc := ⟨.hbm, 88, rfl⟩
abbrev main_v66 : Ref sig .tc := ⟨.hbm, 89, rfl⟩
abbrev main_v67 : Ref sig .tc := ⟨.hbm, 90, rfl⟩
abbrev main_c_11 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_cst_12 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  transposes_S128x256_S256x128_1_0 : S128x256.Transposes [1, 0] S256x128
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  transposes_S64x128_S128x64_1_0 : S64x128.Transposes [1, 0] S128x64
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x256_S256x128_S50000x128_1_0_0_1_n_n_wf : DotDims.WF S50000x256 S256x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.Args.lean ====
/- The eight argument arrays of the idealized kernel's program on a core, each named at its literal array type. -/
import proofs.«170256_j84129819394640_1_alg».proof.Proof.Gen.KernelIdeal
import Idealize.ShloMosaic.PureOps.Ideal

noncomputable section

open Idealize.ShloMosaic Idealize.ShloMosaic.TcCoe Idealize.SL.Sem

namespace Cert.KernelIdeal.Hand

open Cert.KernelIdeal

variable (m : (ℓ : Loc nD τ sig) → Buf (Elt Ideal) ℓ)

/-- The node features, one row of 256 per node. -/
abbrev a0 (c : Dev nD) : (⟨S50000x256, .f32⟩ : BufTy).Contents (Elt Ideal) := m ((c.tc : Thread nD τ).loc main_arg0)
/-- The edge list: row 0 the sources, row 1 the destinations. -/
abbrev a1 (c : Dev nD) : (⟨S2x800000, .i32⟩ : BufTy).Contents (Elt Ideal) := m ((c.tc : Thread nD τ).loc main_arg1)
/-- The first layer's weight. -/
abbrev a2 (c : Dev nD) : (⟨S128x256, .f32⟩ : BufTy).Contents (Elt Ideal) := m ((c.tc : Thread nD τ).loc main_arg2)
/-- The first layer's bias. -/
abbrev a3 (c : Dev nD) : (⟨S128, .f32⟩ : BufTy).Contents (Elt Ideal) := m ((c.tc : Thread nD τ).loc main_arg3)
/-- The mean head's weight. -/
abbrev a4 (c : Dev nD) : (⟨S64x128, .f32⟩ : BufTy).Contents (Elt Ideal) := m ((c.tc : Thread nD τ).loc main_arg4)
/-- The mean head's bias. -/
abbrev a5 (c : Dev nD) : (⟨S64, .f32⟩ : BufTy).Contents (Elt Ideal) := m ((c.tc : Thread nD τ).loc main_arg5)
/-- The log-variance head's weight. -/
abbrev a6 (c : Dev nD) : (⟨S64x128, .f32⟩ : BufTy).Contents (Elt Ideal) := m ((c.tc : Thread nD τ).loc main_arg6)
/-- The log-variance head's bias. -/
abbrev a7 (c : Dev nD) : (⟨S64, .f32⟩ : BufTy).Contents (Elt Ideal) := m ((c.tc : Thread nD τ).loc main_arg7)

end Cert.KernelIdeal.Hand

end
-- ==== Proof.Carry.lean ====
import proofs.«170256_j84129819394640_1_alg».proof.Proof.Gen.KernelIdeal.Frame
import proofs.«170256_j84129819394640_1_alg».proof.Proof.Gen.ReferenceIdeal.Read
import proofs.«170256_j84129819394640_1_alg».proof.Proof.Args
import Idealize.ShloMosaic.Lib.StableHlo.Run

set_option maxRecDepth 16384

noncomputable section

open Idealize.ShloMosaic Idealize.ShloMosaic.TcCoe Idealize.SL.Sem

namespace Cert.KernelIdeal.Hand

open Cert.KernelIdeal Cert.KernelIdeal.Gen

variable (m : (ℓ : Loc nD τ sig) → Buf (Elt Ideal) ℓ) (ρ : Dev nD → PrngReg)

/-- A buffer that no operation of a host stretch writes holds after the stretch what it held before: each
    operation writes its one result buffer, and the buffer in question is a different reference from each. -/
local macro "host_keep " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

/-- At region 0's entry the buffer holds the first row of the edge list as a vector of 800000 entries, followed by
    the numbers 0 … 49999: the host operations' composed term is the reference's stage function at the edge list. -/
private theorem W1_v3 (c : Dev nD) : W1 m ρ c (Proc.devRef .tc main_v3) = Cert.ReferenceIdeal.Read.val_main_v3 (a1 m c) := by
  show StableHlo.after hostOps0 _ (Proc.devRef .tc main_v3) = _
  after_results
  unfold Cert.ReferenceIdeal.Read.val_main_v3 Cert.ReferenceIdeal.Read.val_main_v2 Cert.ReferenceIdeal.Read.val_main_v1
    Cert.ReferenceIdeal.Read.val_main_v0
  rfl

/-- The same for the second row of the edge list. -/
private theorem W1_v6 (c : Dev nD) : W1 m ρ c (Proc.devRef .tc main_v6) = Cert.ReferenceIdeal.Read.val_main_v6 (a1 m c) := by
  show StableHlo.after hostOps0 _ (Proc.devRef .tc main_v6) = _
  after_results
  unfold Cert.ReferenceIdeal.Read.val_main_v6 Cert.ReferenceIdeal.Read.val_main_v5 Cert.ReferenceIdeal.Read.val_main_v4
    Cert.ReferenceIdeal.Read.val_main_v0
  rfl

/-- At region 0's entry the buffer holds the product of the two gathered vectors: the host operations' composed term,
    operation for operation the reference's stage function at the edge list. -/
private theorem W1_v26 (c : Dev nD) : W1 m ρ c (Proc.devRef .tc main_v26) = Cert.ReferenceIdeal.Read.val_main_v26 (a1 m c) := by
  show StableHlo.after hostOps0 _ (Proc.devRef .tc main_v26) = _
  after_results_simp
  unfold Cert.ReferenceIdeal.Read.val_main_v26
    Cert.ReferenceIdeal.Read.val_main_v18
    Cert.ReferenceIdeal.Read.val_main_v25
    Cert.ReferenceIdeal.Read.val_main_v11
    Cert.ReferenceIdeal.Read.val_main_v10
    Cert.ReferenceIdeal.Read.val_main_v8
    Cert.ReferenceIdeal.Read.val_main_v9
    Cert.ReferenceIdeal.Read.val_main_v7
    Cert.ReferenceIdeal.Read.val_main_v17
    Cert.ReferenceIdeal.Read.val_main_v16
    Cert.ReferenceIdeal.Read.val_main_v13
    Cert.ReferenceIdeal.Read.val_main_v12
    Cert.ReferenceIdeal.Read.val_main_v15
    Cert.ReferenceIdeal.Read.val_main_v14
    Cert.ReferenceIdeal.Read.val_main_v24
    Cert.ReferenceIdeal.Read.val_main_v23
    Cert.ReferenceIdeal.Read.val_main_v20
    Cert.ReferenceIdeal.Read.val_main_v19
    Cert.ReferenceIdeal.Read.val_main_v22
    Cert.ReferenceIdeal.Read.val_main_v21
    Cert.ReferenceIdeal.Read.val_main_v3
    Cert.ReferenceIdeal.Read.val_main_v2
    Cert.ReferenceIdeal.Read.val_main_v1
    Cert.ReferenceIdeal.Read.val_main_v0
    Cert.ReferenceIdeal.Read.val_main_v6
    Cert.ReferenceIdeal.Read.val_main_v5
    Cert.ReferenceIdeal.Read.val_main_v4
    Cert.ReferenceIdeal.Read.val_main_cst
    Cert.ReferenceIdeal.Read.val_main_cst_0
    Cert.ReferenceIdeal.Read.val_main_c
    Cert.ReferenceIdeal.Read.val_main_c_1
    Cert.ReferenceIdeal.Read.val_main_c_2
    Cert.ReferenceIdeal.Read.val_main_c_3
  rfl

theorem W1_arg0 (c : Dev nD) : W1 m ρ c (Proc.devRef .tc main_arg0) = a0 m c := by
  calc W1 m ρ c (Proc.devRef .tc main_arg0)
    _ = W0 m ρ c (Proc.devRef .tc main_arg0) := by host_keep hostOps0
    _ = a0 m c := rfl

theorem W1_v27 (c : Dev nD) : W1 m ρ c (Proc.devRef .tc main_v27) = Cert.ReferenceIdeal.Read.val_main_v27 (a2 m c) := by
  show StableHlo.after hostOps0 _ (Proc.devRef .tc main_v27) = _
  after_results
  unfold Cert.ReferenceIdeal.Read.val_main_v27
  rfl

theorem W2_v3 (c : Dev nD) : W2 m ρ c (Proc.devRef .tc main_v3) = Cert.ReferenceIdeal.Read.val_main_v3 (a1 m c) := by
  calc W2 m ρ c (Proc.devRef .tc main_v3)
    _ = W1 m ρ c (Proc.devRef .tc main_v3) := W2_of_ne m ρ c main_v3 (by decide)
    _ = _ := W1_v3 m ρ c

theorem W2_v6 (c : Dev nD) : W2 m ρ c (Proc.devRef .tc main_v6) = Cert.ReferenceIdeal.Read.val_main_v6 (a1 m c) := by
  calc W2 m ρ c (Proc.devRef .tc main_v6)
    _ = W1 m ρ c (Proc.devRef .tc main_v6) := W2_of_ne m ρ c main_v6 (by decide)
    _ = _ := W1_v6 m ρ c

theorem W2_v26 (c : Dev nD) : W2 m ρ c (Proc.devRef .tc main_v26) = Cert.ReferenceIdeal.Read.val_main_v26 (a1 m c) := by
  calc W2 m ρ c (Proc.devRef .tc main_v26)
    _ = W1 m ρ c (Proc.devRef .tc main_v26) := W2_of_ne m ρ c main_v26 (by decide)
    _ = _ := W1_v26 m ρ c

theorem W2_arg3 (c : Dev nD) : W2 m ρ c (Proc.devRef .tc main_arg3) = a3 m c := by
  calc W2 m ρ c (Proc.devRef .tc main_arg3)
    _ = W1 m ρ c (Proc.devRef .tc main_arg3) := W2_of_ne m ρ c main_arg3 (by decide)
    _ = W0 m ρ c (Proc.devRef .tc main_arg3) := by host_keep hostOps0
    _ = a3 m c := rfl

theorem W4_arg4 (c : Dev nD) : W4 m ρ c (Proc.devRef .tc main_arg4) = a4 m c := by
  calc W4 m ρ c (Proc.devRef .tc main_arg4)
    _ = W3 m ρ c (Proc.devRef .tc main_arg4) := W4_of_ne m ρ c main_arg4 (by decide)
    _ = W2 m ρ c (Proc.devRef .tc main_arg4) := by host_keep hostOps1
    _ = W1 m ρ c (Proc.devRef .tc main_arg4) := W2_of_ne m ρ c main_arg4 (by decide)
    _ = W0 m ρ c (Proc.devRef .tc main_arg4) := by host_keep hostOps0
    _ = a4 m c := rfl

theorem W5_v43 (c : Dev nD) : W5 m ρ c (Proc.devRef .tc main_v43) = W4 m ρ c (Proc.devRef .tc main_v43) := by
  host_keep hostOps2

theorem W6_v3 (c : Dev nD) : W6 m ρ c (Proc.devRef .tc main_v3) = Cert.ReferenceIdeal.Read.val_main_v3 (a1 m c) := by
  calc W6 m ρ c (Proc.devRef .tc main_v3)
    _ = W5 m ρ c (Proc.devRef .tc main_v3) := W6_of_ne m ρ c main_v3 (by decide)
    _ = W4 m ρ c (Proc.devRef .tc main_v3) := by host_keep hostOps2
    _ = W3 m ρ c (Proc.devRef .tc main_v3) := W4_of_ne m ρ c main_v3 (by decide)
    _ = W2 m ρ c (Proc.devRef .tc main_v3) := by host_keep hostOps1
    _ = _ := W2_v3 m ρ c

theorem W6_v6 (c : Dev nD) : W6 m ρ c (Proc.devRef .tc main_v6) = Cert.ReferenceIdeal.Read.val_main_v6 (a1 m c) := by
  calc W6 m ρ c (Proc.devRef .tc main_v6)
    _ = W5 m ρ c (Proc.devRef .tc main_v6) := W6_of_ne m ρ c main_v6 (by decide)
    _ = W4 m ρ c (Proc.devRef .tc main_v6) := by host_keep hostOps2
    _ = W3 m ρ c (Proc.devRef .tc main_v6) := W4_of_ne m ρ c main_v6 (by decide)
    _ = W2 m ρ c (Proc.devRef .tc main_v6) := by host_keep hostOps1
    _ = _ := W2_v6 m ρ c

theorem W6_v26 (c : Dev nD) : W6 m ρ c (Proc.devRef .tc main_v26) = Cert.ReferenceIdeal.Read.val_main_v26 (a1 m c) := by
  calc W6 m ρ c (Proc.devRef .tc main_v26)
    _ = W5 m ρ c (Proc.devRef .tc main_v26) := W6_of_ne m ρ c main_v26 (by decide)
    _ = W4 m ρ c (Proc.devRef .tc main_v26) := by host_keep hostOps2
    _ = W3 m ρ c (Proc.devRef .tc main_v26) := W4_of_ne m ρ c main_v26 (by decide)
    _ = W2 m ρ c (Proc.devRef .tc main_v26) := by host_keep hostOps1
    _ = _ := W2_v26 m ρ c

theorem W6_arg5 (c : Dev nD) : W6 m ρ c (Proc.devRef .tc main_arg5) = a5 m c := by
  calc W6 m ρ c (Proc.devRef .tc main_arg5)
    _ = W5 m ρ c (Proc.devRef .tc main_arg5) := W6_of_ne m ρ c main_arg5 (by decide)
    _ = W4 m ρ c (Proc.devRef .tc main_arg5) := by host_keep hostOps2
    _ = W3 m ρ c (Proc.devRef .tc main_arg5) := W4_of_ne m ρ c main_arg5 (by decide)
    _ = W2 m ρ c (Proc.devRef .tc main_arg5) := by host_keep hostOps1
    _ = W1 m ρ c (Proc.devRef .tc main_arg5) := W2_of_ne m ρ c main_arg5 (by decide)
    _ = W0 m ρ c (Proc.devRef .tc main_arg5) := by host_keep hostOps0
    _ = a5 m c := rfl

theorem W8_arg6 (c : Dev nD) : W8 m ρ c (Proc.devRef .tc main_arg6) = a6 m c := by
  calc W8 m ρ c (Proc.devRef .tc main_arg6)
    _ = W7 m ρ c (Proc.devRef .tc main_arg6) := W8_of_ne m ρ c main_arg6 (by decide)
    _ = W6 m ρ c (Proc.devRef .tc main_arg6) := by host_keep hostOps3
    _ = W5 m ρ c (Proc.devRef .tc main_arg6) := W6_of_ne m ρ c main_arg6 (by decide)
    _ = W4 m ρ c (Proc.devRef .tc main_arg6) := by host_keep hostOps2
    _ = W3 m ρ c (Proc.devRef .tc main_arg6) := W4_of_ne m ρ c main_arg6 (by decide)
    _ = W2 m ρ c (Proc.devRef .tc main_arg6) := by host_keep hostOps1
    _ = W1 m ρ c (Proc.devRef .tc main_arg6) := W2_of_ne m ρ c main_arg6 (by decide)
    _ = W0 m ρ c (Proc.devRef .tc main_arg6) := by host_keep hostOps0
    _ = a6 m c := rfl

theorem W9_v43 (c : Dev nD) : W9 m ρ c (Proc.devRef .tc main_v43) = W4 m ρ c (Proc.devRef .tc main_v43) := by
  calc W9 m ρ c (Proc.devRef .tc main_v43)
    _ = W8 m ρ c (Proc.devRef .tc main_v43) := by host_keep hostOps4
    _ = W7 m ρ c (Proc.devRef .tc main_v43) := W8_of_ne m ρ c main_v43 (by decide)
    _ = W6 m ρ c (Proc.devRef .tc main_v43) := by host_keep hostOps3
    _ = W5 m ρ c (Proc.devRef .tc main_v43) := (W6_arr m ρ c 0).trans (((dat2 (V5 m ρ) c).arrAt_in 0 rfl _).trans (A_eq2 (V5 m ρ) c 0))
    _ = W4 m ρ c (Proc.devRef .tc main_v43) := by host_keep hostOps2

theorem W10_v3 (c : Dev nD) : W10 m ρ c (Proc.devRef .tc main_v3) = Cert.ReferenceIdeal.Read.val_main_v3 (a1 m c) := by
  calc W10 m ρ c (Proc.devRef .tc main_v3)
    _ = W9 m ρ c (Proc.devRef .tc main_v3) := W10_of_ne m ρ c main_v3 (by decide)
    _ = W8 m ρ c (Proc.devRef .tc main_v3) := by host_keep hostOps4
    _ = W7 m ρ c (Proc.devRef .tc main_v3) := W8_of_ne m ρ c main_v3 (by decide)
    _ = W6 m ρ c (Proc.devRef .tc main_v3) := by host_keep hostOps3
    _ = _ := W6_v3 m ρ c

theorem W10_v6 (c : Dev nD) : W10 m ρ c (Proc.devRef .tc main_v6) = Cert.ReferenceIdeal.Read.val_main_v6 (a1 m c) := by
  calc W10 m ρ c (Proc.devRef .tc main_v6)
    _ = W9 m ρ c (Proc.devRef .tc main_v6) := W10_of_ne m ρ c main_v6 (by decide)
    _ = W8 m ρ c (Proc.devRef .tc main_v6) := by host_keep hostOps4
    _ = W7 m ρ c (Proc.devRef .tc main_v6) := W8_of_ne m ρ c main_v6 (by decide)
    _ = W6 m ρ c (Proc.devRef .tc main_v6) := by host_keep hostOps3
    _ = _ := W6_v6 m ρ c

theorem W10_v26 (c : Dev nD) : W10 m ρ c (Proc.devRef .tc main_v26) = Cert.ReferenceIdeal.Read.val_main_v26 (a1 m c) := by
  calc W10 m ρ c (Proc.devRef .tc main_v26)
    _ = W9 m ρ c (Proc.devRef .tc main_v26) := W10_of_ne m ρ c main_v26 (by decide)
    _ = W8 m ρ c (Proc.devRef .tc main_v26) := by host_keep hostOps4
    _ = W7 m ρ c (Proc.devRef .tc main_v26) := W8_of_ne m ρ c main_v26 (by decide)
    _ = W6 m ρ c (Proc.devRef .tc main_v26) := by host_keep hostOps3
    _ = _ := W6_v26 m ρ c

theorem W10_arg7 (c : Dev nD) : W10 m ρ c (Proc.devRef .tc main_arg7) = a7 m c := by
  calc W10 m ρ c (Proc.devRef .tc main_arg7)
    _ = W9 m ρ c (Proc.devRef .tc main_arg7) := W10_of_ne m ρ c main_arg7 (by decide)
    _ = W8 m ρ c (Proc.devRef .tc main_arg7) := by host_keep hostOps4
    _ = W7 m ρ c (Proc.devRef .tc main_arg7) := W8_of_ne m ρ c main_arg7 (by decide)
    _ = W6 m ρ c (Proc.devRef .tc main_arg7) := by host_keep hostOps3
    _ = W5 m ρ c (Proc.devRef .tc main_arg7) := W6_of_ne m ρ c main_arg7 (by decide)
    _ = W4 m ρ c (Proc.devRef .tc main_arg7) := by host_keep hostOps2
    _ = W3 m ρ c (Proc.devRef .tc main_arg7) := W4_of_ne m ρ c main_arg7 (by decide)
    _ = W2 m ρ c (Proc.devRef .tc main_arg7) := by host_keep hostOps1
    _ = W1 m ρ c (Proc.devRef .tc main_arg7) := W2_of_ne m ρ c main_arg7 (by decide)
    _ = W0 m ρ c (Proc.devRef .tc main_arg7) := by host_keep hostOps0
    _ = a7 m c := rfl

theorem W12_v60 (c : Dev nD) : W12 m ρ c (Proc.devRef .tc main_v60) = W8 m ρ c (Proc.devRef .tc main_v60) := by
  calc W12 m ρ c (Proc.devRef .tc main_v60)
    _ = W11 m ρ c (Proc.devRef .tc main_v60) := W12_of_ne m ρ c main_v60 (by decide)
    _ = W10 m ρ c (Proc.devRef .tc main_v60) := by host_keep hostOps5
    _ = W9 m ρ c (Proc.devRef .tc main_v60) := W10_of_ne m ρ c main_v60 (by decide)
    _ = W8 m ρ c (Proc.devRef .tc main_v60) := by host_keep hostOps4

end Cert.KernelIdeal.Hand

end
-- ==== Proof.Spec.lean ====
/- The whole-array functions the kernel's six regions compute, each over literal array types and on the extended reals,
   and each stage of the reference that is one of them. A linear layer's entry (i, j) is the sum over k of the input's
   (i, k) times the transposed weight's (k, j); a bias stage adds to entry (i, j) the bias row's entry (0, j); the first
   layer then clamps below at zero. -/
import proofs.«170256_j84129819394640_1_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem

namespace Cert.Spec

open Cert.ReferenceIdeal Cert.ReferenceIdeal.Read

/-- The first linear layer: 256 input features to 128. -/
def lin256 (x : (⟨S50000x256, .f32⟩ : BufTy).Contents (Elt Ideal)) (w : (⟨S256x128, .f32⟩ : BufTy).Contents (Elt Ideal)) :
    (⟨S50000x128, .f32⟩ : BufTy).Contents (Elt Ideal) :=
  fun i => ∑ k : Fin 256, x (lidx_main_v28 i k) * w (ridx_main_v28 i k)

/-- The mean head's linear layer: 128 hidden features to 64. -/
def lin128a (x : (⟨S50000x128, .f32⟩ : BufTy).Contents (Elt Ideal)) (w : (⟨S128x64, .f32⟩ : BufTy).Contents (Elt Ideal)) :
    (⟨S50000x64, .f32⟩ : BufTy).Contents (Elt Ideal) :=
  fun i => ∑ k : Fin 128, x (lidx_main_v47 i k) * w (ridx_main_v47 i k)

/-- The log-variance head's linear layer: 128 hidden features to 64. -/
def lin128b (x : (⟨S50000x128, .f32⟩ : BufTy).Contents (Elt Ideal)) (w : (⟨S128x64, .f32⟩ : BufTy).Contents (Elt Ideal)) :
    (⟨S50000x64, .f32⟩ : BufTy).Contents (Elt Ideal) :=
  fun i => ∑ k : Fin 128, x (lidx_main_v65 i k) * w (ridx_main_v65 i k)

/-- The first layer's bias and activation: the bias row added to every row, then the maximum with zero. -/
def biasRelu (x : (⟨S50000x128, .f32⟩ : BufTy).Contents (Elt Ideal)) (b : (⟨S1x128, .f32⟩ : BufTy).Contents (Elt Ideal)) :
    (⟨S50000x128, .f32⟩ : BufTy).Contents (Elt Ideal) :=
  fun i => max (x i + b (idx_main_v43 i)) (FloatOps.ofBits (F := Ideal) .f32 0x00000000#32)

/-- The mean head's bias: the bias row added to every row. -/
def bias64a (x : (⟨S50000x64, .f32⟩ : BufTy).Contents (Elt Ideal)) (b : (⟨S1x64, .f32⟩ : BufTy).Contents (Elt Ideal)) :
    (⟨S50000x64, .f32⟩ : BufTy).Contents (Elt Ideal) :=
  fun i => x i + b (idx_main_v62 i)

/-- The log-variance head's bias: the bias row added to every row. -/
def bias64b (x : (⟨S50000x64, .f32⟩ : BufTy).Contents (Elt Ideal)) (b : (⟨S1x64, .f32⟩ : BufTy).Contents (Elt Ideal)) :
    (⟨S50000x64, .f32⟩ : BufTy).Contents (Elt Ideal) :=
  fun i => x i + b (idx_main_v80 i)

end Cert.Spec

end
-- ==== Proof.Agg.lean ====
/- The neighbour aggregation both programs apply on the host, as one function of the transformed features, the edge
   endpoints and the edge weights: gather each edge's source row (a negative index counts from the end), scale it by the
   edge's weight, and add it into the destination's row of a zero array. And each stage of the reference as one of the
   whole-array functions applied to earlier stages: the three linear layers, the two aggregations sizes, the three bias stages. -/
import proofs.«170256_j84129819394640_1_alg».proof.Proof.Spec

noncomputable section

open Idealize.ShloMosaic Idealize.ShloMosaic.TcCoe Idealize.SL.Sem

namespace Cert.Spec

open Cert.ReferenceIdeal Cert.ReferenceIdeal.Gen Cert.ReferenceIdeal.Read

/-- An edge endpoint as a row index: a negative one counts from the end of the 50000 nodes. -/
def wrapIdx (src : (⟨S850000, .i32⟩ : BufTy).Contents (Elt Ideal)) : (⟨S850000, .i32⟩ : BufTy).Contents (Elt Ideal) :=
  select (cmpi .slt src (broadcastInDim S850000 ![] bcast_S_S850000 (constantI S_ 32 0#32)))
    (addi src (broadcastInDim S850000 ![] bcast_S_S850000 (constantI S_ 32 50000#32))) src

/-- The aggregation at 128 features. -/
def agg128 (hw : (⟨S50000x128, .f32⟩ : BufTy).Contents (Elt Ideal)) (src dst : (⟨S850000, .i32⟩ : BufTy).Contents (Elt Ideal))
    (nrm : (⟨S850000, .f32⟩ : BufTy).Contents (Elt Ideal)) : (⟨S50000x128, .f32⟩ : BufTy).Contents (Elt Ideal) :=
  Host.scatterAdd (F := Ideal) scatter_S50000x128_S850000x1_S850000x128_1_0_0_1
    (broadcastInDim S50000x128 ![] bcast_S_S50000x128 (constant (F := Ideal) S_ .f32 0x00000000#32))
    (broadcastInDim S850000x1 ![0] bcast_S850000_S850000x1_0 dst)
    (mulf (F := Ideal) (Host.gather gather_S50000x128_S850000x1_S850000x128_1_0_n_n_0_1_1128 hw
        (broadcastInDim S850000x1 ![0] bcast_S850000_S850000x1_0 (wrapIdx src)))
      (broadcastInDim S850000x128 ![0, 1] bcast_S850000x1_S850000x128_0_1
        (broadcastInDim S850000x1 ![0] bcast_S850000_S850000x1_0 nrm)))

/-- The aggregation at 64 features. -/
def agg64 (hw : (⟨S50000x64, .f32⟩ : BufTy).Contents (Elt Ideal)) (src dst : (⟨S850000, .i32⟩ : BufTy).Contents (Elt Ideal))
    (nrm : (⟨S850000, .f32⟩ : BufTy).Contents (Elt Ideal)) : (⟨S50000x64, .f32⟩ : BufTy).Contents (Elt Ideal) :=
  Host.scatterAdd (F := Ideal) scatter_S50000x64_S850000x1_S850000x64_1_0_0_1
    (broadcastInDim S50000x64 ![] bcast_S_S50000x64 (constant (F := Ideal) S_ .f32 0x00000000#32))
    (broadcastInDim S850000x1 ![0] bcast_S850000_S850000x1_0 dst)
    (mulf (F := Ideal) (Host.gather gather_S50000x64_S850000x1_S850000x64_1_0_n_n_0_1_164 hw
        (broadcastInDim S850000x1 ![0] bcast_S850000_S850000x1_0 (wrapIdx src)))
      (broadcastInDim S850000x64 ![0, 1] bcast_S850000x1_S850000x64_0_1
        (broadcastInDim S850000x1 ![0] bcast_S850000_S850000x1_0 nrm)))

variable (x0 : (⟨S50000x256, .f32⟩ : BufTy).Contents (Elt Ideal)) (x1 : (⟨S2x800000, .i32⟩ : BufTy).Contents (Elt Ideal))
  (x2 : (⟨S128x256, .f32⟩ : BufTy).Contents (Elt Ideal)) (x3 : (⟨S128, .f32⟩ : BufTy).Contents (Elt Ideal))
  (x4 : (⟨S64x128, .f32⟩ : BufTy).Contents (Elt Ideal)) (x5 : (⟨S64, .f32⟩ : BufTy).Contents (Elt Ideal))
  (x6 : (⟨S64x128, .f32⟩ : BufTy).Contents (Elt Ideal)) (x7 : (⟨S64, .f32⟩ : BufTy).Contents (Elt Ideal))

/-- The reference's first product is the first linear layer of the features and the transposed weight. -/
theorem val28_eq : val_main_v28 (F := Ideal) x0 x2 = lin256 x0 (val_main_v27 x2) :=
  funext fun i => val_main_v28_apply x0 x2 i

/-- The reference's first aggregation. -/
theorem val41_eq : val_main_v41 (F := Ideal) x0 x1 x2
    = agg128 (val_main_v28 x0 x2) (val_main_v3 x1) (val_main_v6 x1) (val_main_v26 x1) := by
  unfold val_main_v41 val_main_v39 val_main_cst_6 val_main_v40 val_main_v38 val_main_v35 val_main_v34 val_main_v33 val_main_v30
    val_main_v29 val_main_c_4 val_main_v32 val_main_v31 val_main_c_5 val_main_v37 val_main_v36 agg128 wrapIdx
  rfl

/-- A bias vector as a one-row array, read at (0, j): the vector at j. -/
theorem row128_apply (h : S128.ShapeCasts S1x128) (i : S50000x128.Idx) :
    shapeCast S1x128 x3 h (idx_main_v43 i) = x3 (idx_main_v42 (idx_main_v43 i)) :=
  shapeCast_apply x3 h _ _ (by
    rw [Shape.rowMajor_val_two, Shape.rowMajor_val_one]
    show (i 1).val = 0 * 128 + (i 1).val
    omega)

/-- The reference's hidden activations: bias row added, clamped below at zero. -/
theorem val45_eq (h : S128.ShapeCasts S1x128) : val_main_v45 (F := Ideal) x0 x1 x2 x3
    = biasRelu (val_main_v41 x0 x1 x2) (shapeCast S1x128 x3 h) := by
  funext i
  rw [val_main_v45_apply, val_main_v44_apply, val_main_v43_apply, val_main_v42_apply, val_main_call0_v0_apply,
    val_main_call0_cst_apply]
  unfold biasRelu
  rw [row128_apply]
  rfl

/-- The mean head's product. -/
theorem val47_eq : val_main_v47 (F := Ideal) x0 x1 x2 x3 x4 = lin128a (val_main_v45 x0 x1 x2 x3) (val_main_v46 x4) :=
  funext fun i => val_main_v47_apply x0 x1 x2 x3 x4 i

/-- The mean head's aggregation. -/
theorem val60_eq : val_main_v60 (F := Ideal) x0 x1 x2 x3 x4
    = agg64 (val_main_v47 x0 x1 x2 x3 x4) (val_main_v3 x1) (val_main_v6 x1) (val_main_v26 x1) := by
  unfold val_main_v60 val_main_v58 val_main_cst_9 val_main_v59 val_main_v57 val_main_v54 val_main_v53 val_main_v52 val_main_v49
    val_main_v48 val_main_c_7 val_main_v51 val_main_v50 val_main_c_8 val_main_v56 val_main_v55 agg64 wrapIdx
  rfl

/-- A 64-entry bias vector as a one-row array, read at (0, j): the vector at j. -/
theorem row64a_apply (h : S64.ShapeCasts S1x64) (i : S50000x64.Idx) :
    shapeCast S1x64 x5 h (idx_main_v62 i) = x5 (idx_main_v61 (idx_main_v62 i)) :=
  shapeCast_apply x5 h _ _ (by
    rw [Shape.rowMajor_val_two, Shape.rowMajor_val_one]
    show (i 1).val = 0 * 64 + (i 1).val
    omega)

/-- The reference's first result: the mean head's aggregation plus its bias row. -/
theorem val63_eq (h : S64.ShapeCasts S1x64) : val_main_v63 (F := Ideal) x0 x1 x2 x3 x4 x5
    = bias64a (val_main_v60 x0 x1 x2 x3 x4) (shapeCast S1x64 x5 h) := by
  funext i
  rw [val_main_v63_apply, val_main_v62_apply, val_main_v61_apply]
  unfold bias64a
  rw [row64a_apply]
  rfl

/-- The log-variance head's product. -/
theorem val65_eq : val_main_v65 (F := Ideal) x0 x1 x2 x3 x6 = lin128b (val_main_v45 x0 x1 x2 x3) (val_main_v64 x6) :=
  funext fun i => val_main_v65_apply x0 x1 x2 x3 x6 i

/-- The log-variance head's aggregation. -/
theorem val78_eq : val_main_v78 (F := Ideal) x0 x1 x2 x3 x6
    = agg64 (val_main_v65 x0 x1 x2 x3 x6) (val_main_v3 x1) (val_main_v6 x1) (val_main_v26 x1) := by
  unfold val_main_v78 val_main_v76 val_main_cst_12 val_main_v77 val_main_v75 val_main_v72 val_main_v71 val_main_v70 val_main_v67
    val_main_v66 val_main_c_10 val_main_v69 val_main_v68 val_main_c_11 val_main_v74 val_main_v73 agg64 wrapIdx
  rfl

/-- The other 64-entry bias vector as a one-row array, read at (0, j): the vector at j. -/
theorem row64b_apply (h : S64.ShapeCasts S1x64) (i : S50000x64.Idx) :
    shapeCast S1x64 x7 h (idx_main_v80 i) = x7 (idx_main_v79 (idx_main_v80 i)) :=
  shapeCast_apply x7 h _ _ (by
    rw [Shape.rowMajor_val_two, Shape.rowMajor_val_one]
    show (i 1).val = 0 * 64 + (i 1).val
    omega)

/-- The reference's second result: the log-variance head's aggregation plus its bias row. -/
theorem val81_eq (h : S64.ShapeCasts S1x64) : val_main_v81 (F := Ideal) x0 x1 x2 x3 x6 x7
    = bias64b (val_main_v78 x0 x1 x2 x3 x6) (shapeCast S1x64 x7 h) := by
  funext i
  rw [val_main_v81_apply, val_main_v80_apply, val_main_v79_apply]
  unfold bias64b
  rw [row64b_apply]
  rfl

end Cert.Spec

end
-- ==== Proof.Stretch.lean ====
/- What the kernel program's host stretches between its regions compute, from ANY contents of the buffers they read:
   after the first, third and fifth region the neighbour aggregation of that region's product and the bias vector as a
   one-row array; before the second and third linear regions the transposed weight. -/
import proofs.«170256_j84129819394640_1_alg».proof.Proof.Gen.KernelIdeal.Launch
import proofs.«170256_j84129819394640_1_alg».proof.Proof.Agg
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Hand

open Cert.KernelIdeal Cert.KernelIdeal.Gen

variable (W : Valuation τ sig (Elt Ideal))

set_option maxHeartbeats 4000000 in
/-- After the first linear region: the aggregation of its product at 128 features. -/
theorem stretch1_agg : StableHlo.after hostOps1 W (Proc.devRef .tc main_v41)
    = Cert.Spec.agg128 (W (Proc.devRef .tc main_v28)) (W (Proc.devRef .tc main_v3)) (W (Proc.devRef .tc main_v6))
        (W (Proc.devRef .tc main_v26)) := by
  after_results_simp
  rfl

/-- and the first layer's bias as a one-row array. -/
theorem stretch1_bias : StableHlo.after hostOps1 W (Proc.devRef .tc main_v42)
    = shapeCast S1x128 (W (Proc.devRef .tc main_arg3)) shapeCasts_S128_S1x128 := by
  after_results
  rfl

/-- Before the mean head's linear region: its weight transposed. -/
theorem stretch2_wt : StableHlo.after hostOps2 W (Proc.devRef .tc main_v44)
    = Cert.ReferenceIdeal.Read.val_main_v46 (W (Proc.devRef .tc main_arg4)) := by
  after_results
  rfl

set_option maxHeartbeats 4000000 in
/-- After the mean head's linear region: the aggregation of its product at 64 features. -/
theorem stretch3_agg : StableHlo.after hostOps3 W (Proc.devRef .tc main_v58)
    = Cert.Spec.agg64 (W (Proc.devRef .tc main_v45)) (W (Proc.devRef .tc main_v3)) (W (Proc.devRef .tc main_v6))
        (W (Proc.devRef .tc main_v26)) := by
  after_results_simp
  rfl

/-- and the mean head's bias as a one-row array. -/
theorem stretch3_bias : StableHlo.after hostOps3 W (Proc.devRef .tc main_v59)
    = shapeCast S1x64 (W (Proc.devRef .tc main_arg5)) shapeCasts_S64_S1x64 := by
  after_results
  rfl

/-- Before the log-variance head's linear region: its weight transposed. -/
theorem stretch4_wt : StableHlo.after hostOps4 W (Proc.devRef .tc main_v61)
    = Cert.ReferenceIdeal.Read.val_main_v64 (W (Proc.devRef .tc main_arg6)) := by
  after_results
  rfl

set_option maxHeartbeats 4000000 in
/-- After the log-variance head's linear region: the aggregation of its product at 64 features. -/
theorem stretch5_agg : StableHlo.after hostOps5 W (Proc.devRef .tc main_v75)
    = Cert.Spec.agg64 (W (Proc.devRef .tc main_v62)) (W (Proc.devRef .tc main_v3)) (W (Proc.devRef .tc main_v6))
        (W (Proc.devRef .tc main_v26)) := by
  after_results_simp
  rfl

/-- and the log-variance head's bias as a one-row array. -/
theorem stretch5_bias : StableHlo.after hostOps5 W (Proc.devRef .tc main_v76)
    = shapeCast S1x64 (W (Proc.devRef .tc main_arg7)) shapeCasts_S64_S1x64 := by
  after_results
  rfl

end Cert.KernelIdeal.Hand

end
-- ==== Proof.Linear0.lean ====
import proofs.«170256_j84129819394640_1_alg».proof.Proof.Gen.KernelIdeal.Frame
import proofs.«170256_j84129819394640_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen

-- the TensorCore's buffer contents when the region is entered
variable (V : (c : Dev nD) → (b : Ref sig .tc) → Buf (Elt Ideal) ((c : Thread nD τ).loc b))

/-- The contraction record of the block product: rows of a 5000 × 256 block against the 256 × 128 weight. -/
abbrev dotBlk256 : DotDims S5000x256 S256x128 S5000x128 := dot_S5000x256_S256x128_S5000x128_1_0_0_1_n_n

theorem lhs_blk256_0 (i : S5000x128.Idx) (q : dot_S5000x256_S256x128_S5000x128_1_0_0_1_n_n.contr.Idx) :
    (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
theorem lhs_blk256_1 (i : S5000x128.Idx) (q : dot_S5000x256_S256x128_S5000x128_1_0_0_1_n_n.contr.Idx) :
    (dot_S5000x256_S256x128_S5000x128_1_0_0_1_n_n.lhsIdx i q 1).val = (q ⟨0, by decide⟩).val :=
  dot_S5000x256_S256x128_S5000x128_1_0_0_1_n_n.lhsIdx_val_of_single rfl i q
theorem rhs_blk256_0 (i : S5000x128.Idx) (q : dot_S5000x256_S256x128_S5000x128_1_0_0_1_n_n.contr.Idx) :
    (dot_S5000x256_S256x128_S5000x128_1_0_0_1_n_n.rhsIdx i q 0).val = (q ⟨0, by decide⟩).val :=
  dot_S5000x256_S256x128_S5000x128_1_0_0_1_n_n.rhsIdx_val_of_single rfl i q
theorem rhs_blk256_1 (i : S5000x128.Idx) (q : dot_S5000x256_S256x128_S5000x128_1_0_0_1_n_n.contr.Idx) :
    (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- Entry (i 0, k) of the input block. -/
abbrev lblk256 (i : S5000x128.Idx) (k : Fin 256) : S5000x256.Idx := fun a => match a with
  | ⟨0, _⟩ => ⟨(i 0).val, (i 0).isLt⟩
  | ⟨1, _⟩ => ⟨k.val, k.isLt⟩
/-- Entry (k, i 1) of the weight. -/
abbrev rblk256 (i : S5000x128.Idx) (k : Fin 256) : S256x128.Idx := fun a => match a with
  | ⟨0, _⟩ => ⟨k.val, k.isLt⟩
  | ⟨1, _⟩ => ⟨(i 1).val, (i 1).isLt⟩

/-- The body's payload at an index: on the extended reals the format changes and the cast to the same shape are
    identities, and the product into the zero accumulator is the sum over the contracted axis. -/
theorem pay256_apply (x0 : Vec Ideal S5000x256 .f32) (x1 : Vec Ideal S256x128 .f32) (i : S5000x128.Idx) :
    k0_pay1 (F := Ideal) x0 x1 i = ∑ k : Fin 256, x0 (lblk256 i k) * x1 (rblk256 i k) := by
  unfold k0_pay1
  rw [shapeCast_self]
  refine (Ideal.matmul_constant_zero_apply dot_S5000x256_S256x128_S5000x128_1_0_0_1_n_n none _ _ i).trans ?_
  rw [← Equiv.sum_comp (ValueIdx.contrEquiv1 dot_S5000x256_S256x128_S5000x128_1_0_0_1_n_n 256 rfl rfl).symm]
  refine Finset.sum_congr rfl fun k _ => ?_
  have hk := ValueIdx.contrEquiv1_symm_val dot_S5000x256_S256x128_S5000x128_1_0_0_1_n_n 256 rfl rfl k
  have el : dot_S5000x256_S256x128_S5000x128_1_0_0_1_n_n.lhsIdx i ((ValueIdx.contrEquiv1 dot_S5000x256_S256x128_S5000x128_1_0_0_1_n_n 256 rfl rfl).symm k) = lblk256 i k := funext fun a => Fin.ext (by
    match a with
    | ⟨0, _⟩ => exact lhs_blk256_0 _ _
    | ⟨1, _⟩ => exact (lhs_blk256_1 _ _).trans hk)
  have er : dot_S5000x256_S256x128_S5000x128_1_0_0_1_n_n.rhsIdx i ((ValueIdx.contrEquiv1 dot_S5000x256_S256x128_S5000x128_1_0_0_1_n_n 256 rfl rfl).symm k) = rblk256 i k := funext fun a => Fin.ext (by
    match a with
    | ⟨0, _⟩ => exact (rhs_blk256_0 _ _).trans hk
    | ⟨1, _⟩ => exact rhs_blk256_1 _ _)
  rw [el, er]
  rfl

/-- The input array and the transposed weight as the region finds them, at their literal types. -/
abbrev xarr_r0 (c : Dev nD) : (⟨S50000x256, .f32⟩ : BufTy).Contents (Elt Ideal) := V c main_arg0
abbrev warr_r0 (c : Dev nD) : (⟨S256x128, .f32⟩ : BufTy).Contents (Elt Ideal) := V c main_v27

theorem hz_r0 : (![0, 0] : Fin 2 → Nat) = fun _ => 0 := funext fun a => by fin_cases a <;> rfl

/-- The printed index maps over the grid: the input block moves down the rows with the output block, the weight's
    block stays at the origin, and neither the input nor the output block moves along the columns. -/
theorem idx_facts_r0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0 :=
  (by decide +kernel : ∀ t : Fin grid0.N, _)

/-- Every one of the ten row blocks is some point's. -/
theorem idx_onto_r0 : ∀ q : Fin 10, ∃ t : Fin cfg0.N, win0_2.index t (0 : Fin 2) = q.val :=
  (by decide +kernel : ∀ q : Fin 10, ∃ t : Fin grid0.N, win0_2.index t (0 : Fin 2) = q.val)

/-- What point t writes back is block t of the layer applied to the arrays the region found. -/
theorem flushed_r0 (c : Dev nD) (t : Fin cfg0.N) :
    (dat0 (F := Ideal) V c).flushed 2 t = ((cfg0.win 2).blk t).view.read (Elt Ideal) (Cert.Spec.lin256 (V c main_arg0) (V c main_v27)) := by
  show (cfg0.win 2).cut (grid0.coords t) ((dat0 (F := Ideal) V c).after 2 t) = _
  rw [after0_2]
  unfold out0_2
  rw [View.canon_unit_zero hz_r0]
  simp only [View.ld_unit_zero (S := S5000x256) hz_r0, View.ld_unit_zero (S := S256x128) hz_r0]
  obtain ⟨e0, e1, e2, e3, e4⟩ := idx_facts_r0 t
  funext j
  refine (pay256_apply (iblk0 V c 0 t) (iblk0 V c 1 t) j).trans ?_
  show _ = ∑ k : Fin 256, xarr_r0 V c (Cert.ReferenceIdeal.Read.lidx_main_v28 (((cfg0.win 2).blk t).view.emb j) k) * warr_r0 V c (Cert.ReferenceIdeal.Read.ridx_main_v28 (((cfg0.win 2).blk t).view.emb j) k)
  refine Finset.sum_congr rfl fun k _ => ?_
  show xarr_r0 V c (((cfg0.win 0).blk t).view.emb (lblk256 j k)) * warr_r0 V c (((cfg0.win 1).blk t).view.emb (rblk256 j k)) = _
  have h0 : ((cfg0.win 0).blk t).view.emb (lblk256 j k) = Cert.ReferenceIdeal.Read.lidx_main_v28 (((cfg0.win 2).blk t).view.emb j) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 256 + 1 * k.val = k.val; omega
  have h1 : ((cfg0.win 1).blk t).view.emb (rblk256 j k) = Cert.ReferenceIdeal.Read.ridx_main_v28 (((cfg0.win 2).blk t).view.emb j) k := by
    funext a; apply Fin.ext
    match a with
    | ⟨0, _⟩ => show win0_1.index t (0 : Fin 2) * 256 + 1 * k.val = k.val; omega
    | ⟨1, _⟩ => show win0_1.index t (1 : Fin 2) * 128 + 1 * (j 1).val = win0_2.index t (1 : Fin 2) * 128 + 1 * (j 1).val; omega
  rw [h0, h1]

/-- An index of the array is in point t's block iff each coordinate is in the block's range on its axis. -/
theorem mem_blk_r0 (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v28).slice (win0_2.rect t)).set ↔ _
  rw [View.set_slice_whole, Rect.mem_set_unit]
  exact Iff.rfl

/-- The ten blocks tile the array: row r lies in the block of point r / 5000. -/
theorem cover_r0 (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := idx_onto_r0 ⟨(i 0).val / 5000, by omega⟩
  have q0 : win0_2.index t (0 : Fin 2) = (i 0).val / 5000 := ht
  obtain ⟨e0, e1, e2, e3, e4⟩ := idx_facts_r0 t
  refine ⟨t, flush0_2 t, ?_⟩
  rw [mem_blk_r0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The array the first linear layer's region leaves: the layer applied to the arrays the region found. -/
theorem linear0 (c : Dev nD) :
    (dat0 (F := Ideal) V c).arrAt 2 cfg0.N = Cert.Spec.lin256 (V c main_arg0) (V c main_v27) := by
  exact (dat0 (F := Ideal) V c).arrAt_eq_of_cover 2 (Cert.Spec.lin256 (V c main_arg0) (V c main_v27))
    (fun t _ => flushed_r0 V c t) cover_r0

end Cert.KernelIdeal.Hand

end
-- ==== Proof.Linear2.lean ====
import proofs.«170256_j84129819394640_1_alg».proof.Proof.Gen.KernelIdeal.Frame
import proofs.«170256_j84129819394640_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen

-- the TensorCore's buffer contents when the region is entered
variable (V : (c : Dev nD) → (b : Ref sig .tc) → Buf (Elt Ideal) ((c : Thread nD τ).loc b))

/-- The contraction record of the block product: rows of a 5000 × 128 block against the 128 × 64 weight. -/
abbrev dotBlk128_r2 : DotDims S5000x128 S128x64 S5000x64 := dot_S5000x128_S128x64_S5000x64_1_0_0_1_n_n

theorem lhs_blk128_r2_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs_blk128_r2_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem rhs_blk128_r2_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem rhs_blk128_r2_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- Entry (i 0, k) of the input block. -/
abbrev lblk128_r2 (i : S5000x64.Idx) (k : Fin 128) : S5000x128.Idx := fun a => match a with
  | ⟨0, _⟩ => ⟨(i 0).val, (i 0).isLt⟩
  | ⟨1, _⟩ => ⟨k.val, k.isLt⟩
/-- Entry (k, i 1) of the weight. -/
abbrev rblk128_r2 (i : S5000x64.Idx) (k : Fin 128) : S128x64.Idx := fun a => match a with
  | ⟨0, _⟩ => ⟨k.val, k.isLt⟩
  | ⟨1, _⟩ => ⟨(i 1).val, (i 1).isLt⟩

/-- The body's payload at an index: on the extended reals the format changes and the casts to the same shape are
    identities, and the product into the zero accumulator is the sum over the contracted axis. -/
theorem pay128_r2_apply (x0 : Vec Ideal S5000x128 .f32) (x1 : Vec Ideal S128x64 .f32) (i : S5000x64.Idx) :
    k2_pay1 (F := Ideal) x0 x1 i = ∑ k : Fin 128, x0 (lblk128_r2 i k) * x1 (rblk128_r2 i k) := by
  unfold k2_pay1
  rw [shapeCast_self, shapeCast_self]
  refine (Ideal.matmul_constant_zero_apply dot_S5000x128_S128x64_S5000x64_1_0_0_1_n_n none _ _ i).trans ?_
  rw [← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx i ((ValueIdx.contrEquiv1 dot_S5000x128_S128x64_S5000x64_1_0_0_1_n_n 128 rfl rfl).symm k) = lblk128_r2 i k := funext fun a => Fin.ext (by
    match a with
    | ⟨0, _⟩ => exact lhs_blk128_r2_0 _ _
    | ⟨1, _⟩ => exact (lhs_blk128_r2_1 _ _).trans hk)
  have er : dot_S5000x128_S128x64_S5000x64_1_0_0_1_n_n.rhsIdx i ((ValueIdx.contrEquiv1 dot_S5000x128_S128x64_S5000x64_1_0_0_1_n_n 128 rfl rfl).symm k) = rblk128_r2 i k := funext fun a => Fin.ext (by
    match a with
    | ⟨0, _⟩ => exact (rhs_blk128_r2_0 _ _).trans hk
    | ⟨1, _⟩ => exact rhs_blk128_r2_1 _ _)
  rw [el, er]
  rfl

/-- The input array and the transposed weight as the region finds them, at their literal types. -/
abbrev xarr_r2 (c : Dev nD) : (⟨S50000x128, .f32⟩ : BufTy).Contents (Elt Ideal) := V c main_v43
abbrev warr_r2 (c : Dev nD) : (⟨S128x64, .f32⟩ : BufTy).Contents (Elt Ideal) := V c main_v44

theorem hz_r2 : (![0, 0] : Fin 2 → Nat) = fun _ => 0 := funext fun a => by fin_cases a <;> rfl

/-- The printed index maps over the grid: the input block moves down the rows with the output block, the weight's
    block stays at the origin, and neither the input nor the output block moves along the columns. -/
theorem idx_facts_r2 : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0 :=
  (by decide +kernel : ∀ t : Fin grid2.N, _)

/-- Every one of the ten row blocks is some point's. -/
theorem idx_onto_r2 : ∀ q : Fin 10, ∃ t : Fin cfg2.N, win2_2.index t (0 : Fin 2) = q.val :=
  (by decide +kernel : ∀ q : Fin 10, ∃ t : Fin grid2.N, win2_2.index t (0 : Fin 2) = q.val)

/-- What point t writes back is block t of the layer applied to the arrays the region found. -/
theorem flushed_r2 (c : Dev nD) (t : Fin cfg2.N) :
    (dat2 (F := Ideal) V c).flushed 2 t = ((cfg2.win 2).blk t).view.read (Elt Ideal) (Cert.Spec.lin128a (V c main_v43) (V c main_v44)) := by
  show (cfg2.win 2).cut (grid2.coords t) ((dat2 (F := Ideal) V c).after 2 t) = _
  rw [after2_2]
  unfold out2_2
  rw [View.canon_unit_zero hz_r2]
  simp only [View.ld_unit_zero (S := S5000x128) hz_r2, View.ld_unit_zero (S := S128x64) hz_r2]
  obtain ⟨e0, e1, e2, e3, e4⟩ := idx_facts_r2 t
  funext j
  refine (pay128_r2_apply (iblk2 V c 0 t) (iblk2 V c 1 t) j).trans ?_
  show _ = ∑ k : Fin 128, xarr_r2 V c (Cert.ReferenceIdeal.Read.lidx_main_v47 (((cfg2.win 2).blk t).view.emb j) k) * warr_r2 V c (Cert.ReferenceIdeal.Read.ridx_main_v47 (((cfg2.win 2).blk t).view.emb j) k)
  refine Finset.sum_congr rfl fun k _ => ?_
  show xarr_r2 V c (((cfg2.win 0).blk t).view.emb (lblk128_r2 j k)) * warr_r2 V c (((cfg2.win 1).blk t).view.emb (rblk128_r2 j k)) = _
  have h0 : ((cfg2.win 0).blk t).view.emb (lblk128_r2 j k) = Cert.ReferenceIdeal.Read.lidx_main_v47 (((cfg2.win 2).blk t).view.emb j) k := by
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * k.val = k.val; omega
  have h1 : ((cfg2.win 1).blk t).view.emb (rblk128_r2 j k) = Cert.ReferenceIdeal.Read.ridx_main_v47 (((cfg2.win 2).blk t).view.emb j) k := by
    funext a; apply Fin.ext
    match a with
    | ⟨0, _⟩ => show win2_1.index t (0 : Fin 2) * 128 + 1 * k.val = k.val; omega
    | ⟨1, _⟩ => show win2_1.index t (1 : Fin 2) * 64 + 1 * (j 1).val = win2_2.index t (1 : Fin 2) * 64 + 1 * (j 1).val; omega
  rw [h0, h1]

/-- An index of the array is in point t's block iff each coordinate is in the block's range on its axis. -/
theorem mem_blk_r2 (t : Fin cfg2.N) (i : S50000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v45).slice (win2_2.rect t)).set ↔ _
  rw [View.set_slice_whole, Rect.mem_set_unit]
  exact Iff.rfl

/-- The ten blocks tile the array: row r lies in the block of point r / 5000. -/
theorem cover_r2 (i : S50000x64.Idx) :
    ∃ t : Fin cfg2.N, (cfg2.win 2).flush t = true ∧ i ∈ ((cfg2.win 2).blk t).view.set := by
  have hi0 : (i 0).val < 50000 := (i 0).isLt
  have hi1 : (i 1).val < 64 := (i 1).isLt
  obtain ⟨t, ht⟩ := idx_onto_r2 ⟨(i 0).val / 5000, by omega⟩
  have q0 : win2_2.index t (0 : Fin 2) = (i 0).val / 5000 := ht
  obtain ⟨e0, e1, e2, e3, e4⟩ := idx_facts_r2 t
  refine ⟨t, flush2_2 t, ?_⟩
  rw [mem_blk_r2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 64 ≤ (i 1).val ∧ (i 1).val < win2_2.index t (1 : Fin 2) * 64 + 64; omega

/-- The array the mean head's linear region leaves: the layer applied to the arrays the region found. -/
theorem linear2 (c : Dev nD) :
    (dat2 (F := Ideal) V c).arrAt 2 cfg2.N = Cert.Spec.lin128a (V c main_v43) (V c main_v44) := by
  exact (dat2 (F := Ideal) V c).arrAt_eq_of_cover 2 (Cert.Spec.lin128a (V c main_v43) (V c main_v44))
    (fun t _ => flushed_r2 V c t) cover_r2

end Cert.KernelIdeal.Hand

end
-- ==== Proof.Linear4.lean ====
import proofs.«170256_j84129819394640_1_alg».proof.Proof.Gen.KernelIdeal.Frame
import proofs.«170256_j84129819394640_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen

-- the TensorCore's buffer contents when the region is entered
variable (V : (c : Dev nD) → (b : Ref sig .tc) → Buf (Elt Ideal) ((c : Thread nD τ).loc b))

/-- The contraction record of the block product: rows of a 5000 × 128 block against the 128 × 64 weight. -/
abbrev dotBlk128_r4 : DotDims S5000x128 S128x64 S5000x64 := dot_S5000x128_S128x64_S5000x64_1_0_0_1_n_n

theorem lhs_blk128_r4_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs_blk128_r4_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem rhs_blk128_r4_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem rhs_blk128_r4_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- Entry (i 0, k) of the input block. -/
abbrev lblk128_r4 (i : S5000x64.Idx) (k : Fin 128) : S5000x128.Idx := fun a => match a with
  | ⟨0, _⟩ => ⟨(i 0).val, (i 0).isLt⟩
  | ⟨1, _⟩ => ⟨k.val, k.isLt⟩
/-- Entry (k, i 1) of the weight. -/
abbrev rblk128_r4 (i : S5000x64.Idx) (k : Fin 128) : S128x64.Idx := fun a => match a with
  | ⟨0, _⟩ => ⟨k.val, k.isLt⟩
  | ⟨1, _⟩ => ⟨(i 1).val, (i 1).isLt⟩

/-- The body's payload at an index: on the extended reals the format changes and the casts to the same shape are
    identities, and the product into the zero accumulator is the sum over the contracted axis. -/
theorem pay128_r4_apply (x0 : Vec Ideal S5000x128 .f32) (x1 : Vec Ideal S128x64 .f32) (i : S5000x64.Idx) :
    k4_pay1 (F := Ideal) x0 x1 i = ∑ k : Fin 128, x0 (lblk128_r4 i k) * x1 (rblk128_r4 i k) := by
  unfold k4_pay1
  rw [shapeCast_self, shapeCast_self]
  refine (Ideal.matmul_constant_zero_apply dot_S5000x128_S128x64_S5000x64_1_0_0_1_n_n none _ _ i).trans ?_
  rw [← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx i ((ValueIdx.contrEquiv1 dot_S5000x128_S128x64_S5000x64_1_0_0_1_n_n 128 rfl rfl).symm k) = lblk128_r4 i k := funext fun a => Fin.ext (by
    match a with
    | ⟨0, _⟩ => exact lhs_blk128_r4_0 _ _
    | ⟨1, _⟩ => exact (lhs_blk128_r4_1 _ _).trans hk)
  have er : dot_S5000x128_S128x64_S5000x64_1_0_0_1_n_n.rhsIdx i ((ValueIdx.contrEquiv1 dot_S5000x128_S128x64_S5000x64_1_0_0_1_n_n 128 rfl rfl).symm k) = rblk128_r4 i k := funext fun a => Fin.ext (by
    match a with
    | ⟨0, _⟩ => exact (rhs_blk128_r4_0 _ _).trans hk
    | ⟨1, _⟩ => exact rhs_blk128_r4_1 _ _)
  rw [el, er]
  rfl

/-- The input array and the transposed weight as the region finds them, at their literal types. -/
abbrev xarr_r4 (c : Dev nD) : (⟨S50000x128, .f32⟩ : BufTy).Contents (Elt Ideal) := V c main_v43
abbrev warr_r4 (c : Dev nD) : (⟨S128x64, .f32⟩ : BufTy).Contents (Elt Ideal) := V c main_v61

theorem hz_r4 : (![0, 0] : Fin 2 → Nat) = fun _ => 0 := funext fun a => by fin_cases a <;> rfl

/-- The printed index maps over the grid: the input block moves down the rows with the output block, the weight's
    block stays at the origin, and neither the input nor the output block moves along the columns. -/
theorem idx_facts_r4 : ∀ t : Fin cfg4.N, win4_0.index t (0 : Fin 2) = win4_2.index t (0 : Fin 2)
    ∧ win4_0.index t (1 : Fin 2) = 0
    ∧ win4_1.index t (0 : Fin 2) = 0
    ∧ win4_1.index t (1 : Fin 2) = 0
    ∧ win4_2.index t (1 : Fin 2) = 0 :=
  (by decide +kernel : ∀ t : Fin grid4.N, _)

/-- Every one of the ten row blocks is some point's. -/
theorem idx_onto_r4 : ∀ q : Fin 10, ∃ t : Fin cfg4.N, win4_2.index t (0 : Fin 2) = q.val :=
  (by decide +kernel : ∀ q : Fin 10, ∃ t : Fin grid4.N, win4_2.index t (0 : Fin 2) = q.val)

/-- What point t writes back is block t of the layer applied to the arrays the region found. -/
theorem flushed_r4 (c : Dev nD) (t : Fin cfg4.N) :
    (dat4 (F := Ideal) V c).flushed 2 t = ((cfg4.win 2).blk t).view.read (Elt Ideal) (Cert.Spec.lin128b (V c main_v43) (V c main_v61)) := by
  show (cfg4.win 2).cut (grid4.coords t) ((dat4 (F := Ideal) V c).after 2 t) = _
  rw [after4_2]
  unfold out4_2
  rw [View.canon_unit_zero hz_r4]
  simp only [View.ld_unit_zero (S := S5000x128) hz_r4, View.ld_unit_zero (S := S128x64) hz_r4]
  obtain ⟨e0, e1, e2, e3, e4⟩ := idx_facts_r4 t
  funext j
  refine (pay128_r4_apply (iblk4 V c 0 t) (iblk4 V c 1 t) j).trans ?_
  show _ = ∑ k : Fin 128, xarr_r4 V c (Cert.ReferenceIdeal.Read.lidx_main_v65 (((cfg4.win 2).blk t).view.emb j) k) * warr_r4 V c (Cert.ReferenceIdeal.Read.ridx_main_v65 (((cfg4.win 2).blk t).view.emb j) k)
  refine Finset.sum_congr rfl fun k _ => ?_
  show xarr_r4 V c (((cfg4.win 0).blk t).view.emb (lblk128_r4 j k)) * warr_r4 V c (((cfg4.win 1).blk t).view.emb (rblk128_r4 j k)) = _
  have h0 : ((cfg4.win 0).blk t).view.emb (lblk128_r4 j k) = Cert.ReferenceIdeal.Read.lidx_main_v65 (((cfg4.win 2).blk t).view.emb j) k := by
    funext a; apply Fin.ext
    match a with
    | ⟨0, _⟩ => show win4_0.index t (0 : Fin 2) * 5000 + 1 * (j 0).val = win4_2.index t (0 : Fin 2) * 5000 + 1 * (j 0).val; omega
    | ⟨1, _⟩ => show win4_0.index t (1 : Fin 2) * 128 + 1 * k.val = k.val; omega
  have h1 : ((cfg4.win 1).blk t).view.emb (rblk128_r4 j k) = Cert.ReferenceIdeal.Read.ridx_main_v65 (((cfg4.win 2).blk t).view.emb j) k := by
    funext a; apply Fin.ext
    match a with
    | ⟨0, _⟩ => show win4_1.index t (0 : Fin 2) * 128 + 1 * k.val = k.val; omega
    | ⟨1, _⟩ => show win4_1.index t (1 : Fin 2) * 64 + 1 * (j 1).val = win4_2.index t (1 : Fin 2) * 64 + 1 * (j 1).val; omega
  rw [h0, h1]

/-- An index of the array is in point t's block iff each coordinate is in the block's range on its axis. -/
theorem mem_blk_r4 (t : Fin cfg4.N) (i : S50000x64.Idx) :
    i ∈ ((cfg4.win 2).blk t).view.set ↔ ∀ a : Fin 2, win4_2.index t a * S5000x64.size a ≤ (i a).val ∧ (i a).val < win4_2.index t a * S5000x64.size a + S5000x64.size a := by
  show i ∈ ((View.whole main_v62).slice (win4_2.rect t)).set ↔ _
  rw [View.set_slice_whole, Rect.mem_set_unit]
  exact Iff.rfl

/-- The ten blocks tile the array: row r lies in the block of point r / 5000. -/
theorem cover_r4 (i : S50000x64.Idx) :
    ∃ t : Fin cfg4.N, (cfg4.win 2).flush t = true ∧ i ∈ ((cfg4.win 2).blk t).view.set := by
  have hi0 : (i 0).val < 50000 := (i 0).isLt
  have hi1 : (i 1).val < 64 := (i 1).isLt
  obtain ⟨t, ht⟩ := idx_onto_r4 ⟨(i 0).val / 5000, by omega⟩
  have q0 : win4_2.index t (0 : Fin 2) = (i 0).val / 5000 := ht
  obtain ⟨e0, e1, e2, e3, e4⟩ := idx_facts_r4 t
  refine ⟨t, flush4_2 t, ?_⟩
  rw [mem_blk_r4]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 64 ≤ (i 1).val ∧ (i 1).val < win4_2.index t (1 : Fin 2) * 64 + 64; omega

/-- The array the log-variance head's linear region leaves: the layer applied to the arrays the region found. -/
theorem linear4 (c : Dev nD) :
    (dat4 (F := Ideal) V c).arrAt 2 cfg4.N = Cert.Spec.lin128b (V c main_v43) (V c main_v61) := by
  exact (dat4 (F := Ideal) V c).arrAt_eq_of_cover 2 (Cert.Spec.lin128b (V c main_v43) (V c main_v61))
    (fun t _ => flushed_r4 V c t) cover_r4

end Cert.KernelIdeal.Hand

end
-- ==== Proof.Bias1.lean ====
import proofs.«170256_j84129819394640_1_alg».proof.Proof.Gen.KernelIdeal.Frame
import proofs.«170256_j84129819394640_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen

-- the TensorCore's buffer contents when the region is entered
variable (V : (c : Dev nD) → (b : Ref sig .tc) → Buf (Elt Ideal) ((c : Thread nD τ).loc b))

open Idealize.ShloMosaic.ValueIdx

/-- A store that starts at the buffer's origin: its offset is the zero function. -/
theorem bias1_origin : (![0, 0] : Fin 2 → Nat) = fun _ => 0 := funext fun a => by fin_cases a <;> rfl

/-- The body's result at row p, column q of its block: the block's entry there plus the bias row's entry in column q,
    then the maximum with zero. The two casts are to the same shape, and the row broadcast reads its one row. -/
theorem bias1_point (x0 : Vec Ideal S5000x128 .f32) (x1 : Vec Ideal S1x128 .f32) (p : Fin 5000) (q : Fin 128) :
    k1_pay1 x0 x1 (ix2 p q)
      = max (x0 (ix2 p q) + x1 (ix2 (0 : Fin 1) q)) (FloatOps.ofBits (F := Ideal) .f32 0x00000000#32) := by
  unfold k1_pay1
  rw [maximumf_apply, addf_apply, broadcast_apply, shapeCast_self, shapeCast_self, broadcastTo_1b_ab_apply]

/-- The three windows' index maps over the ten grid points: point t holds block row t of the first input and of the
    result, and the one block of the bias row. -/
theorem bias1_index_maps : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The first input's block at point t sits where the result's block sits: same rows, same columns. -/
theorem bias1_rows_at (t : Fin cfg1.N) (p : Fin 5000) (q : Fin 128) :
    ((cfg1.win 0).blk t).view.emb (ix2 p q) = ((cfg1.win 2).blk t).view.emb (ix2 p q) := by
  obtain ⟨e0, e1, -, -, e4, e5⟩ := bias1_index_maps t
  funext a; apply Fin.ext
  match a with
  | ⟨0, _⟩ => show win1_0.index t (0 : Fin 2) * 5000 + 1 * p.val = win1_2.index t (0 : Fin 2) * 5000 + 1 * p.val; omega
  | ⟨1, _⟩ => show win1_0.index t (1 : Fin 2) * 128 + 1 * q.val = win1_2.index t (1 : Fin 2) * 128 + 1 * q.val; omega

/-- The bias row's block is the whole row: its entry in column q is the one the specification reads for any entry of
    the result's block in column q. -/
theorem bias1_bias_at (t : Fin cfg1.N) (p : Fin 5000) (q : Fin 128) :
    ((cfg1.win 1).blk t).view.emb (ix2 (0 : Fin 1) q)
      = Cert.ReferenceIdeal.Read.idx_main_v43 (((cfg1.win 2).blk t).view.emb (ix2 p q)) := by
  obtain ⟨-, -, e2, e3, -, e5⟩ := bias1_index_maps t
  funext a; apply Fin.ext
  match a with
  | ⟨0, _⟩ => show win1_1.index t (0 : Fin 2) * 1 + 1 * 0 = 0; omega
  | ⟨1, _⟩ => show win1_1.index t (1 : Fin 2) * 128 + 1 * q.val = win1_2.index t (1 : Fin 2) * 128 + 1 * q.val; omega

/-- The first input's block that point t reads, at row p, column q: the array's entry where the result's block
    has its row p, column q. -/
theorem bias1_read_rows (c : Dev nD) (t : Fin cfg1.N) (p : Fin 5000) (q : Fin 128) :
    iblk1 V c 0 t (ix2 p q) = V c main_v41 (((cfg1.win 2).blk t).view.emb (ix2 p q)) := by
  show V c main_v41 (((cfg1.win 0).blk t).view.emb (ix2 p q)) = _
  rw [bias1_rows_at t p q]

/-- The block of the bias row that point t reads, in column q: the bias array's entry the specification adds to the
    result's row p, column q. -/
theorem bias1_read_bias (c : Dev nD) (t : Fin cfg1.N) (p : Fin 5000) (q : Fin 128) :
    iblk1 V c 1 t (ix2 (0 : Fin 1) q)
      = V c main_v42 (Cert.ReferenceIdeal.Read.idx_main_v43 (((cfg1.win 2).blk t).view.emb (ix2 p q))) := by
  show V c main_v42 (((cfg1.win 1).blk t).view.emb (ix2 (0 : Fin 1) q)) = _
  rw [bias1_bias_at t p q]

/-- What point t writes back is block t of the specification's array. -/
theorem bias1_flushed (c : Dev nD) (t : Fin cfg1.N) :
    (dat1 (F := Ideal) V c).flushed 2 t
      = ((cfg1.win 2).blk t).view.read (Elt Ideal) (Cert.Spec.biasRelu (V c main_v41) (V c main_v42)) := by
  show (cfg1.win 2).cut (grid1.coords t) ((dat1 V c).after 2 t) = _
  rw [after1_2]
  unfold out1_2
  rw [View.canon_unit_zero bias1_origin]
  simp only [View.ld_unit_zero (S := S5000x128) bias1_origin, View.ld_unit_zero (S := S1x128) bias1_origin]
  funext j
  obtain ⟨p, q, rfl⟩ : ∃ (p : Fin 5000) (q : Fin 128), j = ix2 p q := ⟨j 0, j 1, eq_ix2 j⟩
  show k1_pay1 (iblk1 V c 0 t) (iblk1 V c 1 t) (ix2 p q)
    = Cert.Spec.biasRelu (V c main_v41) (V c main_v42) (((cfg1.win 2).blk t).view.emb (ix2 p q))
  rw [bias1_point, bias1_read_rows V c t p q, bias1_read_bias V c t p q]
  rfl

/-- An index of the result lies in point t's block iff each coordinate lies in the block's range on its axis. -/
theorem bias1_mem_block (t : Fin cfg1.N) (i : S50000x128.Idx) :
    i ∈ ((cfg1.win 2).blk t).view.set
      ↔ ∀ a : Fin 2, win1_2.index t a * S5000x128.size a ≤ (i a).val ∧ (i a).val < win1_2.index t a * S5000x128.size a + S5000x128.size a := by
  show i ∈ ((View.whole main_v43).slice (win1_2.rect t)).set ↔ _
  rw [View.set_slice_whole, Rect.mem_set_unit]
  exact Iff.rfl

/-- The ten blocks tile the result: row r lies in the block of point r / 5000. -/
theorem bias1_cover (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  have hN : grid1.N = 10 := N_1
  let t : Fin cfg1.N := ⟨(i 0).val / 5000, by show (i 0).val / 5000 < grid1.N; omega⟩
  obtain ⟨-, -, -, -, e4, e5⟩ := bias1_index_maps t
  have ht : t.val = (i 0).val / 5000 := rfl
  refine ⟨t, flush1_2 t, ?_⟩
  rw [bias1_mem_block]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- The array the first layer's bias region leaves: bias row added, clamped below at zero. -/
theorem bias1 (c : Dev nD) :
    (dat1 (F := Ideal) V c).arrAt 2 cfg1.N = Cert.Spec.biasRelu (V c main_v41) (V c main_v42) := by
  exact (dat1 (F := Ideal) V c).arrAt_eq_of_cover 2 (Cert.Spec.biasRelu (V c main_v41) (V c main_v42))
    (fun t _ => bias1_flushed V c t) bias1_cover

end Cert.KernelIdeal.Hand

end
-- ==== Proof.Bias3.lean ====
import proofs.«170256_j84129819394640_1_alg».proof.Proof.Gen.KernelIdeal.Frame
import proofs.«170256_j84129819394640_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen

-- the TensorCore's buffer contents when the region is entered
variable (V : (c : Dev nD) → (b : Ref sig .tc) → Buf (Elt Ideal) ((c : Thread nD τ).loc b))

open Idealize.ShloMosaic.ValueIdx

/-- A store that starts at the buffer's origin: its offset is the zero function. -/
theorem bias3_origin : (![0, 0] : Fin 2 → Nat) = fun _ => 0 := funext fun a => by fin_cases a <;> rfl

/-- The mean head's bias body at row p, column q of its block: the block's entry there plus the bias row's entry in
    column q. The two casts are to the same shape, and the row broadcast reads its one row. -/
theorem bias3_point (x0 : Vec Ideal S5000x64 .f32) (x1 : Vec Ideal S1x64 .f32) (p : Fin 5000) (q : Fin 64) :
    k3_pay1 x0 x1 (ix2 p q) = x0 (ix2 p q) + x1 (ix2 (0 : Fin 1) q) := by
  unfold k3_pay1
  rw [addf_apply, shapeCast_self, shapeCast_self, broadcastTo_1b_ab_apply]

/-- The three windows' index maps over the ten grid points: point t holds block row t of the first input and
    of the result, and the one block of the bias row. -/
theorem bias3_index_maps : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The first input's block at point t sits where the result's block sits: same rows, same columns. -/
theorem bias3_rows_at (t : Fin cfg3.N) (p : Fin 5000) (q : Fin 64) :
    ((cfg3.win 0).blk t).view.emb (ix2 p q) = ((cfg3.win 2).blk t).view.emb (ix2 p q) := by
  obtain ⟨e0, e1, -, -, e4, e5⟩ := bias3_index_maps t
  funext a; apply Fin.ext
  match a with
  | ⟨0, _⟩ => show win3_0.index t (0 : Fin 2) * 5000 + 1 * p.val = win3_2.index t (0 : Fin 2) * 5000 + 1 * p.val; omega
  | ⟨1, _⟩ => show win3_0.index t (1 : Fin 2) * 64 + 1 * q.val = win3_2.index t (1 : Fin 2) * 64 + 1 * q.val; omega

/-- The bias row's block is the whole row: its entry in column q is the one the specification reads for any entry of
    the result's block in column q. -/
theorem bias3_bias_at (t : Fin cfg3.N) (p : Fin 5000) (q : Fin 64) :
    ((cfg3.win 1).blk t).view.emb (ix2 (0 : Fin 1) q)
      = Cert.ReferenceIdeal.Read.idx_main_v62 (((cfg3.win 2).blk t).view.emb (ix2 p q)) := by
  obtain ⟨-, -, e2, e3, -, e5⟩ := bias3_index_maps t
  funext a; apply Fin.ext
  match a with
  | ⟨0, _⟩ => show win3_1.index t (0 : Fin 2) * 1 + 1 * 0 = 0; omega
  | ⟨1, _⟩ => show win3_1.index t (1 : Fin 2) * 64 + 1 * q.val = win3_2.index t (1 : Fin 2) * 64 + 1 * q.val; omega

/-- The first input's block that point t reads, at row p, column q: the array's entry where the result's block has
    its row p, column q. -/
theorem bias3_read_rows (c : Dev nD) (t : Fin cfg3.N) (p : Fin 5000) (q : Fin 64) :
    iblk3 V c 0 t (ix2 p q) = V c main_v58 (((cfg3.win 2).blk t).view.emb (ix2 p q)) := by
  show V c main_v58 (((cfg3.win 0).blk t).view.emb (ix2 p q)) = _
  rw [bias3_rows_at t p q]

/-- The block of the bias row that point t reads, in column q: the bias array's entry the specification adds to the
    result's row p, column q. -/
theorem bias3_read_bias (c : Dev nD) (t : Fin cfg3.N) (p : Fin 5000) (q : Fin 64) :
    iblk3 V c 1 t (ix2 (0 : Fin 1) q)
      = V c main_v59 (Cert.ReferenceIdeal.Read.idx_main_v62 (((cfg3.win 2).blk t).view.emb (ix2 p q))) := by
  show V c main_v59 (((cfg3.win 1).blk t).view.emb (ix2 (0 : Fin 1) q)) = _
  rw [bias3_bias_at t p q]

/-- What point t writes back is block t of the specification's array. -/
theorem bias3_flushed (c : Dev nD) (t : Fin cfg3.N) :
    (dat3 (F := Ideal) V c).flushed 2 t
      = ((cfg3.win 2).blk t).view.read (Elt Ideal) (Cert.Spec.bias64a (V c main_v58) (V c main_v59)) := by
  show (cfg3.win 2).cut (grid3.coords t) ((dat3 V c).after 2 t) = _
  rw [after3_2]
  unfold out3_2
  rw [View.canon_unit_zero bias3_origin]
  simp only [View.ld_unit_zero (S := S5000x64) bias3_origin, View.ld_unit_zero (S := S1x64) bias3_origin]
  funext j
  obtain ⟨p, q, rfl⟩ : ∃ (p : Fin 5000) (q : Fin 64), j = ix2 p q := ⟨j 0, j 1, eq_ix2 j⟩
  show k3_pay1 (iblk3 V c 0 t) (iblk3 V c 1 t) (ix2 p q)
    = Cert.Spec.bias64a (V c main_v58) (V c main_v59) (((cfg3.win 2).blk t).view.emb (ix2 p q))
  rw [bias3_point, bias3_read_rows V c t p q, bias3_read_bias V c t p q]
  rfl

/-- An index of the result lies in point t's block iff each coordinate lies in the block's range on its axis. -/
theorem bias3_mem_block (t : Fin cfg3.N) (i : S50000x64.Idx) :
    i ∈ ((cfg3.win 2).blk t).view.set
      ↔ ∀ a : Fin 2, win3_2.index t a * S5000x64.size a ≤ (i a).val ∧ (i a).val < win3_2.index t a * S5000x64.size a + S5000x64.size a := by
  show i ∈ ((View.whole main_v60).slice (win3_2.rect t)).set ↔ _
  rw [View.set_slice_whole, Rect.mem_set_unit]
  exact Iff.rfl

/-- The ten blocks tile the result: row r lies in the block of point r / 5000. -/
theorem bias3_cover (i : S50000x64.Idx) :
    ∃ t : Fin cfg3.N, (cfg3.win 2).flush t = true ∧ i ∈ ((cfg3.win 2).blk t).view.set := by
  have hi0 : (i 0).val < 50000 := (i 0).isLt
  have hi1 : (i 1).val < 64 := (i 1).isLt
  have hN : grid3.N = 10 := N_3
  let t : Fin cfg3.N := ⟨(i 0).val / 5000, by show (i 0).val / 5000 < grid3.N; omega⟩
  obtain ⟨-, -, -, -, e4, e5⟩ := bias3_index_maps t
  have ht : t.val = (i 0).val / 5000 := rfl
  refine ⟨t, flush3_2 t, ?_⟩
  rw [bias3_mem_block]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 64 ≤ (i 1).val ∧ (i 1).val < win3_2.index t (1 : Fin 2) * 64 + 64; omega

/-- The array the mean head's bias region leaves: bias row added to every row. -/
theorem bias3 (c : Dev nD) :
    (dat3 (F := Ideal) V c).arrAt 2 cfg3.N = Cert.Spec.bias64a (V c main_v58) (V c main_v59) := by
  exact (dat3 (F := Ideal) V c).arrAt_eq_of_cover 2 (Cert.Spec.bias64a (V c main_v58) (V c main_v59))
    (fun t _ => bias3_flushed V c t) bias3_cover

end Cert.KernelIdeal.Hand

end
-- ==== Proof.Bias5.lean ====
import proofs.«170256_j84129819394640_1_alg».proof.Proof.Gen.KernelIdeal.Frame
import proofs.«170256_j84129819394640_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen

-- the TensorCore's buffer contents when the region is entered
variable (V : (c : Dev nD) → (b : Ref sig .tc) → Buf (Elt Ideal) ((c : Thread nD τ).loc b))

open Idealize.ShloMosaic.ValueIdx

/-- A store that starts at the buffer's origin: its offset is the zero function. -/
theorem bias5_origin : (![0, 0] : Fin 2 → Nat) = fun _ => 0 := funext fun a => by fin_cases a <;> rfl

/-- The log-variance head's bias body at row p, column q of its block: the block's entry there plus the bias row's entry
    in column q. The two casts are to the same shape, and the row broadcast reads its one row. -/
theorem bias5_point (x0 : Vec Ideal S5000x64 .f32) (x1 : Vec Ideal S1x64 .f32) (p : Fin 5000) (q : Fin 64) :
    k5_pay1 x0 x1 (ix2 p q) = x0 (ix2 p q) + x1 (ix2 (0 : Fin 1) q) := by
  unfold k5_pay1
  rw [addf_apply, shapeCast_self, shapeCast_self, broadcastTo_1b_ab_apply]

/-- The three windows' index maps over the ten grid points: point t holds block row t of the first
    input and of the result, and the one block of the bias row. -/
theorem bias5_index_maps : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- The first input's block at point t sits where the result's block sits: same rows, same columns. -/
theorem bias5_rows_at (t : Fin cfg5.N) (p : Fin 5000) (q : Fin 64) :
    ((cfg5.win 0).blk t).view.emb (ix2 p q) = ((cfg5.win 2).blk t).view.emb (ix2 p q) := by
  obtain ⟨e0, e1, -, -, e4, e5⟩ := bias5_index_maps t
  funext a; apply Fin.ext
  match a with
  | ⟨0, _⟩ => show win5_0.index t (0 : Fin 2) * 5000 + 1 * p.val = win5_2.index t (0 : Fin 2) * 5000 + 1 * p.val; omega
  | ⟨1, _⟩ => show win5_0.index t (1 : Fin 2) * 64 + 1 * q.val = win5_2.index t (1 : Fin 2) * 64 + 1 * q.val; omega

/-- The bias row's block is the whole row: its entry in column q is the one the specification reads for any entry of
    the result's block in column q. -/
theorem bias5_bias_at (t : Fin cfg5.N) (p : Fin 5000) (q : Fin 64) :
    ((cfg5.win 1).blk t).view.emb (ix2 (0 : Fin 1) q)
      = Cert.ReferenceIdeal.Read.idx_main_v80 (((cfg5.win 2).blk t).view.emb (ix2 p q)) := by
  obtain ⟨-, -, e2, e3, -, e5⟩ := bias5_index_maps t
  funext a; apply Fin.ext
  match a with
  | ⟨0, _⟩ => show win5_1.index t (0 : Fin 2) * 1 + 1 * 0 = 0; omega
  | ⟨1, _⟩ => show win5_1.index t (1 : Fin 2) * 64 + 1 * q.val = win5_2.index t (1 : Fin 2) * 64 + 1 * q.val; omega

/-- The first input's block that point t reads, at row p, column q: the array's entry where the result's block has
    its row p, column q. -/
theorem bias5_read_rows (c : Dev nD) (t : Fin cfg5.N) (p : Fin 5000) (q : Fin 64) :
    iblk5 V c 0 t (ix2 p q) = V c main_v75 (((cfg5.win 2).blk t).view.emb (ix2 p q)) := by
  show V c main_v75 (((cfg5.win 0).blk t).view.emb (ix2 p q)) = _
  rw [bias5_rows_at t p q]

/-- The block of the bias row that point t reads, in column q: the bias array's entry the specification adds to the
    result's row p, column q. -/
theorem bias5_read_bias (c : Dev nD) (t : Fin cfg5.N) (p : Fin 5000) (q : Fin 64) :
    iblk5 V c 1 t (ix2 (0 : Fin 1) q)
      = V c main_v76 (Cert.ReferenceIdeal.Read.idx_main_v80 (((cfg5.win 2).blk t).view.emb (ix2 p q))) := by
  show V c main_v76 (((cfg5.win 1).blk t).view.emb (ix2 (0 : Fin 1) q)) = _
  rw [bias5_bias_at t p q]

/-- What point t writes back is block t of the specification's array. -/
theorem bias5_flushed (c : Dev nD) (t : Fin cfg5.N) :
    (dat5 (F := Ideal) V c).flushed 2 t
      = ((cfg5.win 2).blk t).view.read (Elt Ideal) (Cert.Spec.bias64b (V c main_v75) (V c main_v76)) := by
  show (cfg5.win 2).cut (grid5.coords t) ((dat5 V c).after 2 t) = _
  rw [after5_2]
  unfold out5_2
  rw [View.canon_unit_zero bias5_origin]
  simp only [View.ld_unit_zero (S := S5000x64) bias5_origin, View.ld_unit_zero (S := S1x64) bias5_origin]
  funext j
  obtain ⟨p, q, rfl⟩ : ∃ (p : Fin 5000) (q : Fin 64), j = ix2 p q := ⟨j 0, j 1, eq_ix2 j⟩
  show k5_pay1 (iblk5 V c 0 t) (iblk5 V c 1 t) (ix2 p q)
    = Cert.Spec.bias64b (V c main_v75) (V c main_v76) (((cfg5.win 2).blk t).view.emb (ix2 p q))
  rw [bias5_point, bias5_read_rows V c t p q, bias5_read_bias V c t p q]
  rfl

/-- An index of the result lies in point t's block iff each coordinate lies in the block's range on its axis. -/
theorem bias5_mem_block (t : Fin cfg5.N) (i : S50000x64.Idx) :
    i ∈ ((cfg5.win 2).blk t).view.set
      ↔ ∀ a : Fin 2, win5_2.index t a * S5000x64.size a ≤ (i a).val ∧ (i a).val < win5_2.index t a * S5000x64.size a + S5000x64.size a := by
  show i ∈ ((View.whole main_v77).slice (win5_2.rect t)).set ↔ _
  rw [View.set_slice_whole, Rect.mem_set_unit]
  exact Iff.rfl

/-- The ten blocks tile the result: row r lies in the block of point r / 5000. -/
theorem bias5_cover (i : S50000x64.Idx) :
    ∃ t : Fin cfg5.N, (cfg5.win 2).flush t = true ∧ i ∈ ((cfg5.win 2).blk t).view.set := by
  have hi0 : (i 0).val < 50000 := (i 0).isLt
  have hi1 : (i 1).val < 64 := (i 1).isLt
  have hN : grid5.N = 10 := N_5
  let t : Fin cfg5.N := ⟨(i 0).val / 5000, by show (i 0).val / 5000 < grid5.N; omega⟩
  obtain ⟨-, -, -, -, e4, e5⟩ := bias5_index_maps t
  have ht : t.val = (i 0).val / 5000 := rfl
  refine ⟨t, flush5_2 t, ?_⟩
  rw [bias5_mem_block]
  intro a
  match a with
  | ⟨0, _⟩ => show win5_2.index t (0 : Fin 2) * 5000 ≤ (i 0).val ∧ (i 0).val < win5_2.index t (0 : Fin 2) * 5000 + 5000; omega
  | ⟨1, _⟩ => show win5_2.index t (1 : Fin 2) * 64 ≤ (i 1).val ∧ (i 1).val < win5_2.index t (1 : Fin 2) * 64 + 64; omega

/-- The array the log-variance head's bias region leaves: bias row added to every row. -/
theorem bias5 (c : Dev nD) :
    (dat5 (F := Ideal) V c).arrAt 2 cfg5.N = Cert.Spec.bias64b (V c main_v75) (V c main_v76) := by
  exact (dat5 (F := Ideal) V c).arrAt_eq_of_cover 2 (Cert.Spec.bias64b (V c main_v75) (V c main_v76))
    (fun t _ => bias5_flushed V c t) bias5_cover

end Cert.KernelIdeal.Hand

end
-- ==== Proof.Assemble.lean ====
/- The idealized kernel's run, read: walking @main's boundaries in order, each region's output array and each host
   stretch's results are the reference's stages of the same name applied to the kernel's own arguments — the first
   linear layer, its aggregation, the hidden activations, then for each head its linear layer, aggregation and bias —
   so the two result arrays end at the reference's two result stages. -/
import proofs.«170256_j84129819394640_1_alg».proof.Proof.KRun
import proofs.«170256_j84129819394640_1_alg».proof.Proof.Carry
import proofs.«170256_j84129819394640_1_alg».proof.Proof.Stretch
import proofs.«170256_j84129819394640_1_alg».proof.Proof.Linear0
import proofs.«170256_j84129819394640_1_alg».proof.Proof.Linear2
import proofs.«170256_j84129819394640_1_alg».proof.Proof.Linear4
import proofs.«170256_j84129819394640_1_alg».proof.Proof.Bias1
import proofs.«170256_j84129819394640_1_alg».proof.Proof.Bias3
import proofs.«170256_j84129819394640_1_alg».proof.Proof.Bias5

set_option maxRecDepth 16384

noncomputable section

open Idealize.ShloMosaic Idealize.ShloMosaic.TcCoe Idealize.SL.Sem

namespace Cert.KernelIdeal.Hand

open Cert.KernelIdeal Cert.KernelIdeal.Gen Cert.ReferenceIdeal.Read

variable (m : (ℓ : Loc nD τ sig) → Buf (Elt Ideal) ℓ) (ρ : Dev nD → PrngReg)

/-- Region 0 leaves the first linear layer's product. -/
theorem prod1 (c : Dev nD) : W2 m ρ c (Proc.devRef .tc main_v28) = val_main_v28 (a0 m c) (a2 m c) := by
  refine (W2_arr m ρ c 2).trans ?_
  rw [linear0 (V1 m ρ) c]
  show Cert.Spec.lin256 (W1 m ρ c (Proc.devRef .tc main_arg0)) (W1 m ρ c (Proc.devRef .tc main_v27)) = _
  rw [W1_arg0, W1_v27, Cert.Spec.val28_eq]

/-- The stretch after it leaves the aggregation of that product -/
theorem agg1 (c : Dev nD) : W3 m ρ c (Proc.devRef .tc main_v41) = val_main_v41 (a0 m c) (a1 m c) (a2 m c) := by
  show StableHlo.after hostOps1 (W2 m ρ c) (Proc.devRef .tc main_v41) = _
  rw [stretch1_agg, prod1, W2_v3, W2_v6, W2_v26, Cert.Spec.val41_eq]

/-- and the first bias as a one-row array. -/
theorem brow1 (c : Dev nD) : W3 m ρ c (Proc.devRef .tc main_v42) = shapeCast S1x128 (a3 m c) shapeCasts_S128_S1x128 := by
  show StableHlo.after hostOps1 (W2 m ρ c) (Proc.devRef .tc main_v42) = _
  rw [stretch1_bias, W2_arg3]

/-- Region 1 leaves the hidden activations. -/
theorem hidden (c : Dev nD) :
    W4 m ρ c (Proc.devRef .tc main_v43) = val_main_v45 (a0 m c) (a1 m c) (a2 m c) (a3 m c) := by
  refine (W4_arr m ρ c 2).trans ?_
  rw [bias1 (V3 m ρ) c]
  show Cert.Spec.biasRelu (W3 m ρ c (Proc.devRef .tc main_v41)) (W3 m ρ c (Proc.devRef .tc main_v42)) = _
  rw [agg1, brow1, Cert.Spec.val45_eq _ _ _ _ shapeCasts_S128_S1x128]

/-- The mean head's weight, transposed. -/
theorem wt2 (c : Dev nD) : W5 m ρ c (Proc.devRef .tc main_v44) = val_main_v46 (a4 m c) := by
  show StableHlo.after hostOps2 (W4 m ρ c) (Proc.devRef .tc main_v44) = _
  rw [stretch2_wt, W4_arg4]

/-- Region 2 leaves the mean head's product of the hidden activations. -/
theorem prod2 (c : Dev nD) :
    W6 m ρ c (Proc.devRef .tc main_v45) = val_main_v47 (a0 m c) (a1 m c) (a2 m c) (a3 m c) (a4 m c) := by
  refine (W6_arr m ρ c 2).trans ?_
  rw [linear2 (V5 m ρ) c]
  show Cert.Spec.lin128a (W5 m ρ c (Proc.devRef .tc main_v43)) (W5 m ρ c (Proc.devRef .tc main_v44)) = _
  rw [W5_v43, hidden, wt2, Cert.Spec.val47_eq]

/-- Its aggregation -/
theorem agg2 (c : Dev nD) :
    W7 m ρ c (Proc.devRef .tc main_v58) = val_main_v60 (a0 m c) (a1 m c) (a2 m c) (a3 m c) (a4 m c) := by
  show StableHlo.after hostOps3 (W6 m ρ c) (Proc.devRef .tc main_v58) = _
  rw [stretch3_agg, prod2, W6_v3, W6_v6, W6_v26, Cert.Spec.val60_eq]

/-- and the mean head's bias as a one-row array. -/
theorem brow2 (c : Dev nD) : W7 m ρ c (Proc.devRef .tc main_v59) = shapeCast S1x64 (a5 m c) shapeCasts_S64_S1x64 := by
  show StableHlo.after hostOps3 (W6 m ρ c) (Proc.devRef .tc main_v59) = _
  rw [stretch3_bias, W6_arg5]

/-- Region 3 leaves the first result. -/
theorem mean_at8 (c : Dev nD) : W8 m ρ c (Proc.devRef .tc main_v60)
    = val_main_v63 (a0 m c) (a1 m c) (a2 m c) (a3 m c) (a4 m c) (a5 m c) := by
  refine (W8_arr m ρ c 2).trans ?_
  rw [bias3 (V7 m ρ) c]
  show Cert.Spec.bias64a (W7 m ρ c (Proc.devRef .tc main_v58)) (W7 m ρ c (Proc.devRef .tc main_v59)) = _
  rw [agg2, brow2, Cert.Spec.val63_eq _ _ _ _ _ _ shapeCasts_S64_S1x64]

/-- Nothing after region 3 writes the first result. -/
theorem mean_out (c : Dev nD) : W12 m ρ c (Proc.devRef .tc main_v60)
    = val_main_v63 (a0 m c) (a1 m c) (a2 m c) (a3 m c) (a4 m c) (a5 m c) :=
  (W12_v60 m ρ c).trans (mean_at8 m ρ c)

/-- The log-variance head's weight, transposed. -/
theorem wt4 (c : Dev nD) : W9 m ρ c (Proc.devRef .tc main_v61) = val_main_v64 (a6 m c) := by
  show StableHlo.after hostOps4 (W8 m ρ c) (Proc.devRef .tc main_v61) = _
  rw [stretch4_wt, W8_arg6]

/-- Region 4 leaves the log-variance head's product of the hidden activations. -/
theorem prod4 (c : Dev nD) :
    W10 m ρ c (Proc.devRef .tc main_v62) = val_main_v65 (a0 m c) (a1 m c) (a2 m c) (a3 m c) (a6 m c) := by
  refine (W10_arr m ρ c 2).trans ?_
  rw [linear4 (V9 m ρ) c]
  show Cert.Spec.lin128b (W9 m ρ c (Proc.devRef .tc main_v43)) (W9 m ρ c (Proc.devRef .tc main_v61)) = _
  rw [W9_v43, hidden, wt4, Cert.Spec.val65_eq]

/-- Its aggregation -/
theorem agg4 (c : Dev nD) :
    W11 m ρ c (Proc.devRef .tc main_v75) = val_main_v78 (a0 m c) (a1 m c) (a2 m c) (a3 m c) (a6 m c) := by
  show StableHlo.after hostOps5 (W10 m ρ c) (Proc.devRef .tc main_v75) = _
  rw [stretch5_agg, prod4, W10_v3, W10_v6, W10_v26, Cert.Spec.val78_eq]

/-- and the log-variance head's bias as a one-row array. -/
theorem brow4 (c : Dev nD) : W11 m ρ c (Proc.devRef .tc main_v76) = shapeCast S1x64 (a7 m c) shapeCasts_S64_S1x64 := by
  show StableHlo.after hostOps5 (W10 m ρ c) (Proc.devRef .tc main_v76) = _
  rw [stretch5_bias, W10_arg7]

/-- Region 5 leaves the second result. -/
theorem logvar_out (c : Dev nD) : W12 m ρ c (Proc.devRef .tc main_v77)
    = val_main_v81 (a0 m c) (a1 m c) (a2 m c) (a3 m c) (a6 m c) (a7 m c) := by
  refine (W12_arr m ρ c 2).trans ?_
  rw [bias5 (V11 m ρ) c]
  show Cert.Spec.bias64b (W11 m ρ c (Proc.devRef .tc main_v75)) (W11 m ρ c (Proc.devRef .tc main_v76)) = _
  rw [agg4, brow4, Cert.Spec.val81_eq _ _ _ _ _ _ shapeCasts_S64_S1x64]

/-- The run, read: each result array at the reference's result stage of the kernel's arguments, the arguments unchanged. -/
theorem run : θ_run defs (onTc (τ := τ) (main (F := Ideal))) ⟨m, fun _ => 0, ρ⟩ (fun r => ∀ c : Dev nD,
      r.2.mem ((c.tc : Thread nD τ).loc main_v60) = val_main_v63 (a0 m c) (a1 m c) (a2 m c) (a3 m c) (a4 m c) (a5 m c)
      ∧ r.2.mem ((c.tc : Thread nD τ).loc main_v77) = val_main_v81 (a0 m c) (a1 m c) (a2 m c) (a3 m c) (a6 m c) (a7 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (mean_out m ρ c), (h c).2.1.trans (logvar_out m ρ c), (h c).2.2⟩)
    (run_named m ρ)

end Cert.KernelIdeal.Hand

end
-- ==== Proof.lean ====
/- The proof of `Cert.Claim`. The kernel program is a two-layer graph convolution with two heads: a linear layer of the
   node features, a neighbour aggregation over the edge list with symmetric degree weights, bias and a clamp at zero, then
   per head a linear layer of the hidden activations, the same aggregation and a bias. Its six tiled regions are the three
   linear layers (bf16 inputs, f32 accumulation: at the ideal instance the plain real product) and the three bias stages;
   the degree weights, the gathers and the scatter-additions are host operations, the same in the reference. Over the
   extended reals every region's array is the reference's stage of the same name, so the two results agree; no law of
   arithmetic beyond "a product into a zero accumulator is the sum of products" is used, and the precondition is not
   opened. The three frames are the generated ones (the reference's is its run with the results dropped); the
   idealization rewrote nothing. -/
import proofs.«170256_j84129819394640_1_alg».proof.Proof.Gen.Kernel.Frame
import proofs.«170256_j84129819394640_1_alg».proof.Proof.Gen.KernelIdeal.Frame
import proofs.«170256_j84129819394640_1_alg».proof.Proof.Gen.ReferenceIdeal.Read
import proofs.«170256_j84129819394640_1_alg».proof.Proof.Gen.Pre_finite_inputs
import proofs.«170256_j84129819394640_1_alg».proof.Proof.Assemble
import proofs.«170256_j84129819394640_1_alg».proof.Defs
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2.2) (Cert.ReferenceIdeal.Value.run (F := Ideal) m ρ)

/-- Both programs end with each result at the reference's result stage of the (agreeing) arguments. -/
theorem algebraic : Cert.algebraic_KernelIdeal_ReferenceIdeal := by
  intro m ρ m' ρ' _ hagree
  refine ⟨fun c => Cert.ReferenceIdeal.Read.val_main_v63 (Cert.KernelIdeal.Hand.a0 m c) (Cert.KernelIdeal.Hand.a1 m c)
      (Cert.KernelIdeal.Hand.a2 m c) (Cert.KernelIdeal.Hand.a3 m c) (Cert.KernelIdeal.Hand.a4 m c) (Cert.KernelIdeal.Hand.a5 m c),
    fun c => Cert.ReferenceIdeal.Read.val_main_v81 (Cert.KernelIdeal.Hand.a0 m c) (Cert.KernelIdeal.Hand.a1 m c)
      (Cert.KernelIdeal.Hand.a2 m c) (Cert.KernelIdeal.Hand.a3 m c) (Cert.KernelIdeal.Hand.a6 m c) (Cert.KernelIdeal.Hand.a7 m c),
    Cert.KernelIdeal.Hand.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨e0, e1, e2, e3, e4, e5, e6, e7⟩ := hagree c
    rw [Cert.ReferenceIdeal.Read.val_main_v63_eq, e0, e1, e2, e3, e4, e5]
  · obtain ⟨e0, e1, e2, e3, e4, e5, e6, e7⟩ := hagree c
    rw [Cert.ReferenceIdeal.Read.val_main_v81_eq, e0, e1, e2, e3, e6, e7]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
